-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S22544384 : Shape := ⟨1, ![22544384]⟩
abbrev S352256x1 : Shape := ⟨2, ![352256, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S352256x1 : S_.BroadcastsInDim S352256x1 (![] : Fin 0 → Fin S352256x1.rank)
  reducesTo_S352256x1_S_d0_1 : S352256x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S22544384 32) (main_arg2 : FVec F S352256x1 .f32) (main_arg3 : IVec S352256x1 32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S352256x1 .f32 := Host.absf main_arg2
  let main_cst_0 : FVec F S_ .f32 := constant S_ .f32 0x7F800000#32
  let main_v5 : FVec F S352256x1 .f32 := broadcastInDim S352256x1 ![] bcast_S_S352256x1 main_cst_0
  let main_v6 : IVec S352256x1 1 := cmpf .olt main_v4 main_v5
  let main_c_1 : IVec S_ 1 := constantI S_ 1 1#1
  let main_v7 : IVec S_ 1 := (fun x v => Host.reduce IntOp.andi x v reducesTo_S352256x1_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S22544384 : Shape := ⟨1, ![22544384]⟩
abbrev S352256x1 : Shape := ⟨2, ![352256, 1]⟩
abbrev S11008 : Shape := ⟨1, ![11008]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S11008x2048 : Shape := ⟨2, ![11008, 2048]⟩
abbrev S352256 : Shape := ⟨1, ![352256]⟩
abbrev S11008x32 : Shape := ⟨2, ![11008, 32]⟩
abbrev S1x11008 : Shape := ⟨2, ![1, 11008]⟩
abbrev S2048 : Shape := ⟨1, ![2048]⟩
abbrev S1x2048 : Shape := ⟨2, ![1, 2048]⟩
abbrev S32 : Shape := ⟨1, ![32]⟩
abbrev S32x1 : Shape := ⟨2, ![32, 1]⟩
abbrev S_ : Shape := ⟨0, ![]⟩
abbrev S32x2048 : Shape := ⟨2, ![32, 2048]⟩
abbrev S256x2048 : Shape := ⟨2, ![256, 2048]⟩
abbrev S256x32 : Shape := ⟨2, ![256, 32]⟩
abbrev S8192x11008 : Shape := ⟨2, ![8192, 11008]⟩
abbrev S1024x2048 : Shape := ⟨2, ![1024, 2048]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 48
  | .vmem => 27
  | .smem => 0
  | _ => 0

abbrev bufTy : (tb : Table) → Fin (tcTables nBuf tb) → BufTy
  | .hbm, ⟨0, _⟩ => ⟨S4x2048x4096, .f32⟩
  | .hbm, ⟨1, _⟩ => ⟨S22544384, .i32⟩
  | .hbm, ⟨2, _⟩ => ⟨S352256x1, .f32⟩
  | .hbm, ⟨3, _⟩ => ⟨S352256x1, .i32⟩
  | .hbm, ⟨4, _⟩ => ⟨S11008, .f32⟩
  | .hbm, ⟨5, _⟩ => ⟨S8192x4096, .f32⟩
  | .hbm, ⟨6, _⟩ => ⟨S8192x4096, .bf16⟩
  | .hbm, ⟨7, _⟩ => ⟨S8192x2048x2, .bf16⟩
  | .hbm, ⟨8, _⟩ => ⟨S8192x2048x1, .bf16⟩
  | .hbm, ⟨9, _⟩ => ⟨S8192x2048, .bf16⟩
  | .hbm, ⟨10, _⟩ => ⟨S8192x2048x1, .bf16⟩
  | .hbm, ⟨11, _⟩ => ⟨S8192x2048, .bf16⟩
  | .hbm, ⟨12, _⟩ => ⟨S11008x2048, .i32⟩
  | .hbm, ⟨13, _⟩ => ⟨S352256, .f32⟩
  | .hbm, ⟨14, _⟩ => ⟨S11008x32, .f32⟩
  | .hbm, ⟨15, _⟩ => ⟨S352256, .i32⟩
  | .hbm, ⟨16, _⟩ => ⟨S11008x32, .i32⟩
  | .hbm, ⟨17, _⟩ => ⟨S1x11008, .f32⟩
  | .hbm, ⟨18, _⟩ => ⟨S2048, .i32⟩
  | .hbm, ⟨19, _⟩ => ⟨S1x2048, .i32⟩
  | .hbm, ⟨20, _⟩ => ⟨S32, .i32⟩
  | .hbm, ⟨21, _⟩ => ⟨S32x1, .i32⟩
  | .hbm, ⟨22, _⟩ => ⟨S_, .i32⟩
  | .hbm, ⟨23, _⟩ => ⟨S_, .i32⟩
  | .hbm, ⟨24, _⟩ => ⟨S1x2048, .i32⟩
  | .hbm, ⟨25, _⟩ => ⟨S1x2048, .i32⟩
  | .hbm, ⟨26, _⟩ => ⟨S1x2048, .i32⟩
  | .hbm, ⟨27, _⟩ => ⟨S_, .i32⟩
  | .hbm, ⟨28, _⟩ => ⟨S1x2048, .i32⟩
  | .hbm, ⟨29, _⟩ => ⟨S1x2048, .i1⟩
  | .hbm, ⟨30, _⟩ => ⟨S1x2048, .i32⟩
  | .hbm, ⟨31, _⟩ => ⟨S1x2048, .i32⟩
  | .hbm, ⟨32, _⟩ => ⟨S_, .i32⟩
  | .hbm, ⟨33, _⟩ => ⟨S1x2048, .i32⟩
  | .hbm, ⟨34, _⟩ => ⟨S1x2048, .i1⟩
  | .hbm, ⟨35, _⟩ => ⟨S1x2048, .i1⟩
  | .hbm, ⟨36, _⟩ => ⟨S_, .i32⟩
  | .hbm, ⟨37, _⟩ => ⟨S1x2048, .i32⟩
  | .hbm, ⟨38, _⟩ => ⟨S1x2048, .i32⟩
  | .hbm, ⟨39, _⟩ => ⟨S1x2048, .i32⟩
  | .hbm, ⟨40, _⟩ => ⟨S32x2048, .i32⟩
  | .hbm, ⟨41, _⟩ => ⟨S32x2048, .i32⟩
  | .hbm, ⟨42, _⟩ => ⟨S32x2048, .i1⟩
  | .hbm, ⟨43, _⟩ => ⟨S32x2048, .f32⟩
  | .hbm, ⟨44, _⟩ => ⟨S11008x2048, .bf16⟩
  | .hbm, ⟨45, _⟩ => ⟨S11008x2048, .bf16⟩
  | .hbm, ⟨46, _⟩ => ⟨S8192x11008, .f32⟩
  | .hbm, ⟨47, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x2048, .i32⟩
  | .local _ .vmem, ⟨5, _⟩ => ⟨S256x2048, .i32⟩
  | .local _ .vmem, ⟨6, _⟩ => ⟨S256x32, .f32⟩
  | .local _ .vmem, ⟨7, _⟩ => ⟨S256x32, .f32⟩
  | .local _ .vmem, ⟨8, _⟩ => ⟨S256x32, .i32⟩
  | .local _ .vmem, ⟨9, _⟩ => ⟨S256x32, .i32⟩
  | .local _ .vmem, ⟨10, _⟩ => ⟨S32x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S1x256, .f32⟩
  | .local _ .vmem, ⟨24, _⟩ => ⟨S1x256, .f32⟩
  | .local _ .vmem, ⟨25, _⟩ => ⟨S1024x256, .f32⟩
  | .local _ .vmem, ⟨26, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22_0 : Ref sig .tc := ⟨.hbm, 44, rfl⟩
abbrev main_v22_1 : Ref sig .tc := ⟨.hbm, 45, rfl⟩
abbrev main_v23 : Ref sig .tc := ⟨.hbm, 46, rfl⟩
abbrev main_v24 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x32 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![8, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  shapeCasts_S22544384_S11008x2048 : S22544384.ShapeCasts S11008x2048
  shapeCasts_S352256x1_S352256 : S352256x1.ShapeCasts S352256
  shapeCasts_S352256_S11008x32 : S352256.ShapeCasts S11008x32
  shapeCasts_S11008_S1x11008 : S11008.ShapeCasts S1x11008
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S_S1x2048 : S_.BroadcastsInDim S1x2048 (![] : Fin 0 → Fin S1x2048.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  packedbf16_S256x2048_S256x2048_0_0 : (Rect.unit (s := S256x2048) ![0, 0] S256x2048.size inb_S256x2048_S256x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S256x32_S32x2048_S256x2048_1_0_0_1_n_n_wf : DotDims.WF S256x32 S32x2048 S256x2048 [1] [0] [0] [1] [] []
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S11008x2048.size a
  hwx1_0 : ∀ i : grid1.Coords, EltTy.bits .i32 = 32 ∨ (Rect.block (s := S11008x2048) S256x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x32.size a ≤ S11008x32.size a
  hwx1_1 : ∀ i : grid1.Coords, EltTy.bits .f32 = 32 ∨ (Rect.block (s := S11008x32) S256x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x32.size a ≤ S11008x32.size a
  hwx1_2 : ∀ i : grid1.Coords, EltTy.bits .i32 = 32 ∨ (Rect.block (s := S11008x32) S256x32.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x2048.size a ≤ S32x2048.size a
  hwx1_3 : ∀ i : grid1.Coords, EltTy.bits .f32 = 32 ∨ (Rect.block (s := S32x2048) S32x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S11008x2048.size a
  hwx1_4 : ∀ i : grid1.Coords, EltTy.bits .bf16 = 32 ∨ (Rect.block (s := S11008x2048) S256x2048.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S11008x2048.size a
  hwx1_5 : ∀ i : grid1.Coords, EltTy.bits .bf16 = 32 ∨ (Rect.block (s := S11008x2048) S256x2048.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x2048.size a
  hwx2_0 : ∀ i : grid2.Coords, EltTy.bits .bf16 = 32 ∨ (Rect.block (s := S8192x2048) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S8192x2048.size a
  hwx2_1 : ∀ i : grid2.Coords, EltTy.bits .bf16 = 32 ∨ (Rect.block (s := S8192x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S11008x2048.size a
  hwx2_2 : ∀ i : grid2.Coords, EltTy.bits .bf16 = 32 ∨ (Rect.block (s := S11008x2048) S256x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S11008x2048.size a
  hwx2_3 : ∀ i : grid2.Coords, EltTy.bits .bf16 = 32 ∨ (Rect.block (s := S11008x2048) S256x2048.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x11008.size a
  hwx2_4 : ∀ i : grid2.Coords, EltTy.bits .f32 = 32 ∨ (Rect.block (s := S1x11008) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x11008.size a
  hwx2_5 : ∀ i : grid2.Coords, EltTy.bits .f32 = 32 ∨ (Rect.block (s := S8192x11008) S1024x256.size (cc2_transform_5 i) (hinb2_5 i)).WholeWords (EltTy.packing .f32)

variable [Facts₀]

def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf
def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v7) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S256x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S256x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S32x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22_0) S256x2048.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22_1) S256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22_0) S256x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22_1) S256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S22544384 : Shape := ⟨1, ![22544384]⟩
abbrev S352256x1 : Shape := ⟨2, ![352256, 1]⟩
abbrev S11008 : Shape := ⟨1, ![11008]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S22544384x1 : Shape := ⟨2, ![22544384, 1]⟩
abbrev S22544384x2 : Shape := ⟨2, ![22544384, 2]⟩
abbrev S352256x128 : Shape := ⟨2, ![352256, 128]⟩
abbrev S11008x4096 : Shape := ⟨2, ![11008, 4096]⟩
abbrev S4096x11008 : Shape := ⟨2, ![4096, 11008]⟩
abbrev S8192x11008 : Shape := ⟨2, ![8192, 11008]⟩
abbrev S1x11008 : Shape := ⟨2, ![1, 11008]⟩
abbrev S4x2048x11008 : Shape := ⟨3, ![4, 2048, 11008]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S22544384, .i32⟩
  | .hbm, ⟨2, _⟩ => ⟨S352256x1, .f32⟩
  | .hbm, ⟨3, _⟩ => ⟨S352256x1, .i32⟩
  | .hbm, ⟨4, _⟩ => ⟨S11008, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .i32⟩
  | .hbm, ⟨30, _⟩ => ⟨S22544384, .i32⟩
  | .hbm, ⟨31, _⟩ => ⟨S22544384, .i32⟩
  | .hbm, ⟨32, _⟩ => ⟨S_, .i32⟩
  | .hbm, ⟨33, _⟩ => ⟨S22544384, .i32⟩
  | .hbm, ⟨34, _⟩ => ⟨S22544384, .i32⟩
  | .hbm, ⟨35, _⟩ => ⟨S_, .i32⟩
  | .hbm, ⟨36, _⟩ => ⟨S22544384, .i32⟩
  | .hbm, ⟨37, _⟩ => ⟨S22544384, .i32⟩
  | .hbm, ⟨38, _⟩ => ⟨S22544384x1, .i32⟩
  | .hbm, ⟨39, _⟩ => ⟨S22544384x1, .i32⟩
  | .hbm, ⟨40, _⟩ => ⟨S22544384x2, .i32⟩
  | .hbm, ⟨41, _⟩ => ⟨S352256x128, .i32⟩
  | .hbm, ⟨42, _⟩ => ⟨S352256x128, .f32⟩
  | .hbm, ⟨43, _⟩ => ⟨S352256x1, .f32⟩
  | .hbm, ⟨44, _⟩ => ⟨S352256x128, .f32⟩
  | .hbm, ⟨45, _⟩ => ⟨S352256x128, .f32⟩
  | .hbm, ⟨46, _⟩ => ⟨S352256x128, .f32⟩
  | .hbm, ⟨47, _⟩ => ⟨S352256x128, .f32⟩
  | .hbm, ⟨48, _⟩ => ⟨S11008x4096, .f32⟩
  | .hbm, ⟨49, _⟩ => ⟨S4096x11008, .f32⟩
  | .hbm, ⟨50, _⟩ => ⟨S8192x11008, .f32⟩
  | .hbm, ⟨51, _⟩ => ⟨S1x11008, .f32⟩
  | .hbm, ⟨52, _⟩ => ⟨S8192x11008, .f32⟩
  | .hbm, ⟨53, _⟩ => ⟨S8192x11008, .f32⟩
  | .hbm, ⟨54, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  shapeCasts_S4x2048x4096_S8192x4096 : S4x2048x4096.ShapeCasts S8192x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S_S22544384 : S_.BroadcastsInDim S22544384 (![] : Fin 0 → Fin S22544384.rank)
  bcast_S22544384_S22544384x1_0 : S22544384.BroadcastsInDim S22544384x1 (![0] : Fin 1 → Fin S22544384x1.rank)
  concatenates_S22544384x1_S22544384x1_S22544384x2_d1 : Shape.Concatenates [S22544384x1, S22544384x1] S22544384x2 1
  shapeCasts_S22544384x2_S352256x128 : S22544384x2.ShapeCasts S352256x128
  bcast_S352256x1_S352256x128_0_1 : S352256x1.BroadcastsInDim S352256x128 (![0, 1] : Fin 2 → Fin S352256x128.rank)
  shapeCasts_S352256x128_S11008x4096 : S352256x128.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  shapeCasts_S8192x11008_S4x2048x11008 : S8192x11008.ShapeCasts S4x2048x11008
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Spec.lean ====
/-
  The quantised linear layer as plain functions on the extended reals, and the two laws that join its
  two spellings.

  A row of 4096 activations is replaced by its 8-bit fake-quantisation: with a the largest magnitude in
  the row and step = max(a, eps) / 127, entry k becomes clamp(roundeven(x k / step), -128, 127) * step.
  A weight row of 4096 entries is stored as 2048 words, each holding two 4-bit fields: the high field
  is the even column, the low field the odd column; columns come in groups of 128 (64 words) that share
  a zero point and a scale, so entry k is (field k - zero (k / 128)) * scale (k / 128).

  One spelling selects a group's zero point and scale by summing against a one-hot table
  (sum over g of a g * [j / 64 = g] = a (j / 64): every other term is a product with 0), and contracts the
  even and the odd columns separately (a sum over 4096 columns is the sum over its 2048 even columns plus
  the sum over its 2048 odd ones: a reordering, valid in any commutative monoid, so no finiteness is
  asked of anything).
-/
import Idealize.ShloMosaic.PureOps.Ideal
import Idealize.ShloMosaic.PureOps.Ideal.Laws
import Mathlib.Algebra.BigOperators.Fin

noncomputable section

namespace Cert.Spec

open Idealize.ShloMosaic

/-! ## Index arithmetic -/

/-- The even column 2j of word j. -/
def ev (j : Fin 2048) : Fin 4096 := ⟨2 * j.val, by have := j.isLt; omega⟩
/-- The odd column 2j + 1 of word j. -/
def od (j : Fin 2048) : Fin 4096 := ⟨2 * j.val + 1, by have := j.isLt; omega⟩
/-- The word k / 2 that holds column k. -/
def half (k : Fin 4096) : Fin 2048 := ⟨k.val / 2, by have := k.isLt; omega⟩
/-- The group k / 128 of column k. -/
def grpK (k : Fin 4096) : Fin 32 := ⟨k.val / 128, by have := k.isLt; omega⟩
/-- The group j / 64 of word j. -/
def grpJ (j : Fin 2048) : Fin 32 := ⟨j.val / 64, by have := j.isLt; omega⟩
/-- Word j of weight row n in the flat array of words. -/
def qix (n : Fin 11008) (j : Fin 2048) : Fin 22544384 := ⟨n.val * 2048 + j.val, by have := n.isLt; have := j.isLt; omega⟩
/-- Group g of weight row n in the flat array of groups. -/
def gix (n : Fin 11008) (g : Fin 32) : Fin 352256 := ⟨n.val * 32 + g.val, by have := n.isLt; have := g.isLt; omega⟩

theorem grpK_ev (j : Fin 2048) : grpK (ev j) = grpJ j := Fin.ext (by show 2 * j.val / 128 = j.val / 64; omega)
theorem grpK_od (j : Fin 2048) : grpK (od j) = grpJ j := Fin.ext (by show (2 * j.val + 1) / 128 = j.val / 64; omega)
theorem half_ev (j : Fin 2048) : half (ev j) = j := Fin.ext (by show 2 * j.val / 2 = j.val; omega)
theorem half_od (j : Fin 2048) : half (od j) = j := Fin.ext (by show (2 * j.val + 1) / 2 = j.val; omega)
theorem ev_mod (j : Fin 2048) : (ev j).val % 2 = 0 := by show 2 * j.val % 2 = 0; omega
theorem od_mod (j : Fin 2048) : ¬ (od j).val % 2 = 0 := by show ¬ (2 * j.val + 1) % 2 = 0; omega

/-! ## Fake-quantisation of one row of activations -/

/-- The largest magnitude in a row: the running maximum of |x k|, started from minus infinity. -/
def rowAmax (row : Fin 4096 → EReal) : EReal :=
  (Finset.univ : Finset (Fin 4096)).fold max (Ideal.ofBits .f32 0xFF800000#32) (fun k => max (row k) (-(row k)))

/-- The quantisation step max(a, eps) / 127, written as a product with 1/127. -/
def qstep (row : Fin 4096 → EReal) : EReal :=
  max (rowAmax row) (Ideal.ofBits .f32 0x3727C5AC#32) * ((1 / 127 : ℝ) : EReal)

/-- Entry k of the fake-quantised row: clamp(roundeven(x k / step), -128, 127) * step. -/
def fakeq (row : Fin 4096 → EReal) (k : Fin 4096) : EReal :=
  min (Ideal.ofBits .f32 0x42FE0000#32)
      (max (Ideal.ofBits .f32 0xC3000000#32) (Ideal.liftRound Ideal.roundHalfEven (Ideal.div (row k) (qstep row))))
    * qstep row

/-! ## The packed weights -/

/-- The high 4-bit field of a word, as a number. -/
def hiNib (q : BitVec 32) : EReal := (((IntOp.andi (IntOp.shrsi .vector q 4#32) 15#32).toInt : ℝ) : EReal)
/-- The low 4-bit field of a word, as a number. -/
def loNib (q : BitVec 32) : EReal := (((IntOp.andi q 15#32).toInt : ℝ) : EReal)

/-- The one-hot table: 1 where word j lies in group g, else 0. -/
def onehot (g : Fin 32) (j : Fin 2048) : EReal := if j.val / 64 = g.val then 1 else 0

/-- Entry k of a dequantised weight row, from the row's 2048 high fields H, 2048 low fields L, and its 32 zero
    points z and scales s. -/
def wrow (H L : Fin 2048 → EReal) (z s : Fin 32 → EReal) (k : Fin 4096) : EReal :=
  ((if k.val % 2 = 0 then H (half k) else L (half k)) - z (grpK k)) * s (grpK k)

/-! ## The two laws -/

/-- Summing against the one-hot table selects the word's group. -/
theorem onehot_sum (a : Fin 32 → EReal) (j : Fin 2048) : ∑ g : Fin 32, a g * onehot g j = a (grpJ j) := by
  rw [Finset.sum_eq_single (grpJ j)]
  · simp [onehot, grpJ]
  · intro g _ hg
    have : ¬ (j.val / 64 = g.val) := fun h => hg (Fin.ext h.symm)
    simp [onehot, this]
  · intro h; exact absurd (Finset.mem_univ _) h

/-- A sum over 4096 columns is the sum over the even columns plus the sum over the odd columns. -/
theorem sum_even_odd {M : Type*} [AddCommMonoid M] (f : Fin 4096 → M) :
    ∑ k : Fin 4096, f k = ∑ j : Fin 2048, f (ev j) + ∑ j : Fin 2048, f (od j) := by
  have hE : (Finset.univ.filter fun k : Fin 4096 => k.val % 2 = 0) = Finset.univ.image ev := by
    ext k
    simp only [Finset.mem_filter, Finset.mem_univ, true_and, Finset.mem_image]
    constructor
    · intro h; exact ⟨half k, Fin.ext (by show 2 * (k.val / 2) = k.val; omega)⟩
    · rintro ⟨j, rfl⟩; exact ev_mod j
  have hO : (Finset.univ.filter fun k : Fin 4096 => ¬ k.val % 2 = 0) = Finset.univ.image od := by
    ext k
    simp only [Finset.mem_filter, Finset.mem_univ, true_and, Finset.mem_image]
    constructor
    · intro h; exact ⟨half k, Fin.ext (by show 2 * (k.val / 2) + 1 = k.val; omega)⟩
    · rintro ⟨j, rfl⟩; exact od_mod j
  have iE : Function.Injective ev := fun a b h => Fin.ext (by
    have e : 2 * a.val = 2 * b.val := congrArg Fin.val h
    omega)
  have iO : Function.Injective od := fun a b h => Fin.ext (by
    have e : 2 * a.val + 1 = 2 * b.val + 1 := congrArg Fin.val h
    omega)
  rw [← Finset.sum_filter_add_sum_filter_not Finset.univ (fun k : Fin 4096 => k.val % 2 = 0) f, hE, hO,
    Finset.sum_image (fun a _ b _ h => iE h), Finset.sum_image (fun a _ b _ h => iO h)]

/-- THE LAW THAT JOINS THE TWO SPELLINGS, for one activation row T and one weight row: the even columns against the high
    fields plus the odd columns against the low fields, with zero point and scale selected by the one-hot table, plus the
    bias, is the contraction of the whole row against the dequantised weight row, plus the bias. -/
theorem split_contraction (T : Fin 4096 → EReal) (H L : Fin 2048 → EReal) (z s : Fin 32 → EReal) (b : EReal) :
    (∑ j : Fin 2048, T (ev j) * ((H j - ∑ g : Fin 32, z g * onehot g j) * ∑ g : Fin 32, s g * onehot g j)
      + ∑ j : Fin 2048, T (od j) * ((L j - ∑ g : Fin 32, z g * onehot g j) * ∑ g : Fin 32, s g * onehot g j)) + b
    = ∑ k : Fin 4096, T k * wrow H L z s k + b := by
  rw [sum_even_odd (fun k => T k * wrow H L z s k)]
  congr 2
  · refine Finset.sum_congr rfl fun j _ => ?_
    rw [onehot_sum, onehot_sum]; unfold wrow; rw [if_pos (ev_mod j), half_ev, grpK_ev]
  · refine Finset.sum_congr rfl fun j _ => ?_
    rw [onehot_sum, onehot_sum]; unfold wrow; rw [if_neg (od_mod j), half_od, grpK_od]

/-! ## The literals -/

/-- The pattern of 127.0 denotes 127. -/
theorem ofBits_127 : Ideal.ofBits .f32 0x42FE0000#32 = ((127 : ℝ) : EReal) := by
  simp [Ideal.ofBits, Ideal.ieee, -EReal.coe_mul]; norm_num

/-- The pattern of -128.0 denotes -128. -/
theorem ofBits_neg128 : Ideal.ofBits .f32 0xC3000000#32 = ((-128 : ℝ) : EReal) := by
  simp [Ideal.ofBits, Ideal.ieee, -EReal.coe_mul]; norm_num

/-- Dividing by 127 is multiplying by 1/127, on every extended real. -/
theorem div_127 (x : EReal) : Ideal.div x (Ideal.ofBits .f32 0x42FE0000#32) = x * ((1 / 127 : ℝ) : EReal) := by
  rw [ofBits_127]; exact Ideal.div_coe (by norm_num) x

end Cert.Spec

end
-- ==== Proof.Arrays.lean ====
/-
  The arrays the three launches read and write, each named once at its literal shape and element type, so that
  arithmetic on their entries is arithmetic on extended reals (or on 32-bit words).
-/
import proofs.«417241_j81913616270135_3_alg».proof.Proof.Gen.KernelIdeal.Frame

noncomputable section

namespace Cert.KernelIdeal.Val

open Cert.KernelIdeal Cert.KernelIdeal.Gen Idealize.ShloMosaic Idealize.ShloMosaic.TcCoe Idealize.SL.Sem

section AtContents
variable (V : (c : Dev nD) → (b : Ref sig .tc) → Buf (Elt Ideal) ((c : Thread nD τ).loc b))

/-- The activations as 8192 rows of 4096. -/
abbrev aX (c : Dev nD) : FVec Ideal S8192x4096 .f32 := V c main_v0
/-- The fake-quantised activations. -/
abbrev aT (c : Dev nD) : FVec Ideal S8192x4096 .bf16 := V c main_v1
/-- Their even columns. -/
abbrev aXe (c : Dev nD) : FVec Ideal S8192x2048 .bf16 := V c main_v4
/-- Their odd columns. -/
abbrev aXo (c : Dev nD) : FVec Ideal S8192x2048 .bf16 := V c main_v6
/-- The packed words, 11008 rows of 2048. -/
abbrev aQ (c : Dev nD) : IVec S11008x2048 32 := V c main_v7
/-- The scales, 11008 rows of 32 groups. -/
abbrev aS (c : Dev nD) : FVec Ideal S11008x32 .f32 := V c main_v9
/-- The zero points, 11008 rows of 32 groups. -/
abbrev aZ (c : Dev nD) : IVec S11008x32 32 := V c main_v11
/-- The bias as one row. -/
abbrev aB (c : Dev nD) : FVec Ideal S1x11008 .f32 := V c main_v12
/-- The one-hot table, 32 groups by 2048 words. -/
abbrev aE (c : Dev nD) : FVec Ideal S32x2048 .f32 := V c main_v21
/-- The dequantised high fields (even columns of the weights). -/
abbrev aWhi (c : Dev nD) : FVec Ideal S11008x2048 .bf16 := V c main_v22_0
/-- The dequantised low fields (odd columns of the weights). -/
abbrev aWlo (c : Dev nD) : FVec Ideal S11008x2048 .bf16 := V c main_v22_1
/-- The product, 8192 rows of 11008. -/
abbrev aOut (c : Dev nD) : FVec Ideal S8192x11008 .f32 := V c main_v23
end AtContents

section AtLaunch
variable (m : (ℓ : Loc nD τ sig) → Buf (Elt Ideal) ℓ)

/-- The five arguments as launched. -/
abbrev mX (c : Dev nD) : FVec Ideal S4x2048x4096 .f32 := m ((c : Thread nD τ).loc main_arg0)
abbrev mQ (c : Dev nD) : IVec S22544384 32 := m ((c : Thread nD τ).loc main_arg1)
abbrev mS (c : Dev nD) : FVec Ideal S352256x1 .f32 := m ((c : Thread nD τ).loc main_arg2)
abbrev mZ (c : Dev nD) : IVec S352256x1 32 := m ((c : Thread nD τ).loc main_arg3)
abbrev mB (c : Dev nD) : FVec Ideal S11008 .f32 := m ((c : Thread nD τ).loc main_arg4)
end AtLaunch

end Cert.KernelIdeal.Val

end
-- ==== Proof.Region0.lean ====
/-
  The first launch (activation fake-quantisation), as one function of the array it reads.
-/
import proofs.«417241_j81913616270135_3_alg».proof.Proof.Gen.KernelIdeal.Frame
import proofs.«417241_j81913616270135_3_alg».proof.Proof.Spec
import proofs.«417241_j81913616270135_3_alg».proof.Proof.Arrays
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-- A column of `a` entries read at (p, u) is entry p of the vector it was cast from. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along the rows reads, at (p, k), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The reduced row index p with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The named constant is the rational 1/127. -/
theorem inv_127 : Named.named (F := Ideal) Cert.KernelIdeal.κ "inv_127" (φ := .f32) 0x3C010204#32 = ((1 / 127 : ℝ) : EReal) :=
  IdealRules.named_const.ideal_named_scalar _ _ _ _ rfl

/-- The maximum over the columns of the magnitudes of a block, at row p, is the largest magnitude of row p. -/
theorem rowmax_eq (x : FVec Ideal S256x4096 .f32) (h : S256x4096.Reduces [1] S256) (hφ : FKind.Formats .f32)
    (hacc : (0xFF800000#32 : BitVec 32) = FKind.maximumf.neutral .f32 hφ) (p : Fin 256) :
    multiReduction (F := Ideal) .maximumf [1] S256 (absf x) 0xFF800000#32 h hφ hacc (ix1 p) = Cert.Spec.rowAmax (fun k' => x (ix2 p k')) := by
  refine (Ideal.multiReduction_maximumf_single (absf x) 0xFF800000#32 h hφ hacc (ix1 p)).trans ?_
  have hf : (absf x ∘ h.lift (ix1 p)) = fun k : Fin 4096 => max (x (ix2 p k)) (-(x (ix2 p k))) :=
    funext fun k => (congrArg (absf x) (lift_row h p k)).trans rfl
  exact congrArg (fun f => Finset.fold max (Ideal.ofBits .f32 0xFF800000#32) f (Finset.univ : Finset (Fin 4096))) hf

/-- The clamp-and-rescale of a block against a column of steps, read at (p, k): only the column's entry p enters. -/
theorem quant_apply (x : FVec Ideal S256x4096 .f32) (col : FVec Ideal S256x1 .f32) (hb : S256x1.Broadcasts S256x4096)
    (hbits : FTy.bf16.bits < FTy.f32.bits) (p : Fin 256) (k : Fin 4096) :
    (truncf .bf16 (mulf (minimumf (broadcast S256x4096 (FloatOps.ofBits (F := Ideal) .f32 0x42FE0000#32))
        (maximumf (broadcast S256x4096 (FloatOps.ofBits (F := Ideal) .f32 0xC3000000#32)) (roundeven (divf x (broadcastTo S256x4096 col hb)))))
        (broadcastTo S256x4096 col hb)) hbits : FVec Ideal S256x4096 .bf16) (ix2 p k)
    = min (Ideal.ofBits .f32 0x42FE0000#32) (max (Ideal.ofBits .f32 0xC3000000#32)
        (Ideal.liftRound Ideal.roundHalfEven (Ideal.div (x (ix2 p k)) (col (ix2 p (0 : Fin 1)))))) * col (ix2 p (0 : Fin 1)) := by
  have e : broadcastTo S256x4096 col hb (ix2 p k) = col (ix2 p (0 : Fin 1)) := broadcastTo_a1_ab_apply col hb p k
  show min _ (max _ (Ideal.liftRound Ideal.roundHalfEven (Ideal.div (x (ix2 p k)) (broadcastTo S256x4096 col hb (ix2 p k))))) * broadcastTo S256x4096 col hb (ix2 p k) = _
  rw [e]; rfl

/-- A column floored at eps and multiplied by 1/127, read at row p. -/
theorem step_apply2 (x : FVec Ideal S256x4096 .f32) (v : FVec Ideal S256x1 .f32) (p : Fin 256) (r : EReal)
    (e : v (ix2 p (0 : Fin 1)) = r) :
    (mulf (maximumf v
        (broadcast S256x1 (FloatOps.ofBits (F := Ideal) .f32 0x3727C5AC#32)))
      (broadcast S256x1 (Named.named (F := Ideal) κ "inv_127" (φ := .f32) 0x3C010204#32)) : FVec Ideal S256x1 .f32) (ix2 p (0 : Fin 1))
    = max r (Ideal.ofBits .f32 0x3727C5AC#32) * ((1 / 127 : ℝ) : EReal) := by
  show max (v (ix2 p (0 : Fin 1))) _ * Named.named (F := Ideal) κ "inv_127" (φ := .f32) 0x3C010204#32 = _
  rw [e, inv_127]; rfl

/-- The column of steps at row p: the row's largest magnitude, floored at eps, times 1/127. -/
theorem step_apply (x : FVec Ideal S256x4096 .f32) (h : S256x4096.Reduces [1] S256) (hφ : FKind.Formats .f32)
    (hacc : (0xFF800000#32 : BitVec 32) = FKind.maximumf.neutral .f32 hφ) (hc : S256.ShapeCasts S256x1) (p : Fin 256) :
    (mulf (maximumf (shapeCast S256x1 (multiReduction (F := Ideal) .maximumf [1] S256 (absf x) 0xFF800000#32 h hφ hacc) hc)
        (broadcast S256x1 (FloatOps.ofBits (F := Ideal) .f32 0x3727C5AC#32)))
      (broadcast S256x1 (Named.named (F := Ideal) κ "inv_127" (φ := .f32) 0x3C010204#32)) : FVec Ideal S256x1 .f32) (ix2 p (0 : Fin 1))
    = Cert.Spec.qstep (fun k' => x (ix2 p k')) := by
  have e : shapeCast S256x1 (multiReduction (F := Ideal) .maximumf [1] S256 (absf x) 0xFF800000#32 h hφ hacc) hc (ix2 p (0 : Fin 1))
      = Cert.Spec.rowAmax (fun k' => x (ix2 p k')) :=
    (shapeCast_a_a1_apply _ hc p 0).trans (rowmax_eq x h hφ hacc p)
  exact step_apply2 x _ p _ e

/-- THE BODY ON ONE BLOCK: at row p and column k it is the fake-quantisation of the block's row p at k; a block that is
    its own reshape is itself. -/
theorem pay_eq (x : FVec Ideal S256x4096 .f32) (p : Fin 256) (k : Fin 4096) :
    Gen.k0_pay1 (F := Ideal) x (ix2 p k) = Cert.Spec.fakeq (fun k' => x (ix2 p k')) k := by
  have hx : shapeCast S256x4096 x shapeCasts_S256x4096_S256x4096 = x := shapeCast_self x _
  unfold Gen.k0_pay1
  refine (quant_apply (shapeCast S256x4096 x shapeCasts_S256x4096_S256x4096) _ _ _ p k).trans ?_
  refine (congrArg (fun s : EReal => min (Ideal.ofBits .f32 0x42FE0000#32) (max (Ideal.ofBits .f32 0xC3000000#32)
        (Ideal.liftRound Ideal.roundHalfEven (Ideal.div (shapeCast S256x4096 x shapeCasts_S256x4096_S256x4096 (ix2 p k)) s))) * s)
      (step_apply (shapeCast S256x4096 x shapeCasts_S256x4096_S256x4096) _ _ _ _ p)).trans ?_
  rw [hx]; rfl

/-! ## From the blocks to the array -/

/-- The origin of a block, as a function. -/
theorem origin_zero : (![0, 0] : Fin 2 → Nat) = fun _ => 0 := funext fun a => by fin_cases a <;> rfl

/-- The whole output array as one function of the whole input array: each row's fake-quantisation. -/
abbrev quantRows (a : FVec Ideal S8192x4096 .f32) : FVec Ideal S8192x4096 .bf16 :=
  fun i => Cert.Spec.fakeq (fun k' => a (ix2 (⟨(i 0).val, idx2_lt0 i⟩ : Fin 8192) k')) (⟨(i 1).val, idx2_lt1 i⟩ : Fin 4096)

/-- The index maps, decided over the 32 points: point t reads and writes the block of rows t, all columns. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The body's result on a block x that holds rows of the array a: at block index j it is the array function at i, when
    i has j's column and block row (j 0) of x is row (i 0) of a, all 4096 columns. -/
theorem point_eq (a : FVec Ideal S8192x4096 .f32) (x : FVec Ideal S256x4096 .f32) (j : S256x4096.Idx) (i : S8192x4096.Idx)
    (hcol : (i 1).val = (j 1).val)
    (hx : ∀ k' : Fin 4096, x (ix2 (⟨(j 0).val, idx2_lt0 j⟩ : Fin 256) k') = a (ix2 (⟨(i 0).val, idx2_lt0 i⟩ : Fin 8192) k')) :
    Gen.k0_pay1 (F := Ideal) x j = quantRows a i := by
  obtain ⟨p, q, rfl⟩ : ∃ (p : Fin 256) (q : Fin 4096), j = ix2 p q := ⟨j 0, j 1, eq_ix2 j⟩
  refine (pay_eq x p q).trans ?_
  have hq : (⟨(i 1).val, idx2_lt1 i⟩ : Fin 4096) = q := Fin.ext hcol
  show Cert.Spec.fakeq (fun k' => x (ix2 p k')) q
    = Cert.Spec.fakeq (fun k' => a (ix2 (⟨(i 0).val, idx2_lt0 i⟩ : Fin 8192) k')) (⟨(i 1).val, idx2_lt1 i⟩ : Fin 4096)
  rw [hq]
  exact congrArg (fun row => Cert.Spec.fakeq row q) (funext fun k' => hx k')

variable (V : (c : Dev nD) → (b : Ref sig .tc) → Buf (Elt Ideal) ((c : Thread nD τ).loc b))

/-- WHAT POINT t WRITES BACK is block t of the row-by-row fake-quantisation of the input array as the launch finds it:
    block row p of point t is array row t * 256 + p, with all 4096 columns, in the input and in the output alike. -/
theorem flushed_eq (c : Dev nD) (t : Fin cfg0.N) :
    (dat0 (F := Ideal) V c).flushed 1 t = ((cfg0.win 1).blk t).view.read (Elt Ideal) (quantRows (aX V c)) := by
  show (cfg0.win 1).cut (grid0.coords t) ((dat0 (F := Ideal) V c).after 1 t) = _
  rw [after0_1]
  unfold out0_1
  rw [View.canon_unit_zero origin_zero]
  simp only [View.ld_unit_zero (S := S256x4096) origin_zero]
  obtain ⟨e0, e1, e2, e3⟩ := block_index t
  funext j
  show Gen.k0_pay1 (F := Ideal) (iblk0 V c 0 t) j = quantRows (aX V c) (((cfg0.win 1).blk t).view.emb j)
  refine point_eq (aX V c) (iblk0 V c 0 t) j (((cfg0.win 1).blk t).view.emb j) ?_ ?_
  · show win0_1.index t (1 : Fin 2) * 4096 + 1 * (j 1).val = (j 1).val
    omega
  · intro k'
    show V c main_v0 (((cfg0.win 0).blk t).view.emb (ix2 (⟨(j 0).val, idx2_lt0 j⟩ : Fin 256) k'))
      = V c main_v0 (ix2 (⟨((((cfg0.win 1).blk t).view.emb j) 0).val, idx2_lt0 _⟩ : Fin 8192) k')
    refine congrArg (V c main_v0) (funext fun a => Fin.ext ?_)
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * k'.val = k'.val; omega

/-- An index of the array is in point t's block iff each coordinate is in the block's range on its axis. -/
theorem mem_block (t : Fin cfg0.N) (i : S8192x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1).slice (win0_1.rect t)).set ↔ _
  rw [View.set_slice_whole, Rect.mem_set_unit]
  exact Iff.rfl

/-- Every index of the array is in the block of the point its row falls in: row r is in block r / 256. -/
theorem covered (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 32 := N_0
  let t : Fin cfg0.N := ⟨(i 0).val / 256, by omega⟩
  obtain ⟨e0, e1, e2, e3⟩ := block_index t
  have ht : t.val = (i 0).val / 256 := rfl
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- The output array after the launch is the row-by-row fake-quantisation of the input array. -/
theorem act_quant_array (c : Dev nD) : (dat0 (F := Ideal) V c).arrAt 1 cfg0.N = quantRows (aX V c) :=
  (dat0 (F := Ideal) V c).arrAt_eq_of_cover 1 (quantRows (aX V c)) (fun t _ => flushed_eq V c t) covered

/-- After the first launch its output array holds, at row r and column k, the fake-quantisation of row r of the input
    array at k: each block is 256 whole rows, so a row's maximum is taken over the whole row. -/
theorem act_quant_final (c : Dev nD) (r : Fin 8192) (k : Fin 4096) :
    (dat0 (F := Ideal) V c).arrAt 1 cfg0.N (ix2 r k) = Cert.Spec.fakeq (fun k' => aX V c (ix2 r k')) k := by
  rw [act_quant_array]

end Cert.KernelIdeal.Val

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.Region1.lean ====
/-
  The second launch (unpacking and dequantising the weights), as functions of the arrays it reads.

  Each of the 43 points reads 256 rows of words, of scales and of zero points, and the whole one-hot table, and
  writes 256 rows of high fields and 256 rows of low fields: at row p, word j of a block, the field as a number,
  minus the sum over the 32 groups of (zero point * table entry), times the sum over the 32 groups of
  (scale * table entry). Block row p of point t is array row 256 t + p, so the two output arrays are the same
  expressions of the four input arrays, entry by entry; the 43 blocks of 256 rows tile the 11008 rows.
-/
import proofs.«417241_j81913616270135_3_alg».proof.Proof.Gen.KernelIdeal.Frame
import proofs.«417241_j81913616270135_3_alg».proof.Proof.Spec
import proofs.«417241_j81913616270135_3_alg».proof.Proof.Arrays
import proofs.«417241_j81913616270135_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## A block entry, from the four blocks the point reads -/

/-- The dimension record of the two products is the plain one: columns against rows, nothing batched. -/
theorem plain_dot : PlainDot.IsPlain (M := 256) (K := 32) (N := 2048) dot_S256x32_S32x2048_S256x2048_1_0_0_1_n_n :=
  ⟨rfl, rfl, rfl, rfl, rfl, rfl⟩

/-- The scale selected for a block entry: the product of the scales' block with the table, into zero, is the sum over
    the 32 groups. -/
theorem pay3_apply (s : Vec Ideal S256x32 .f32) (e : Vec Ideal S32x2048 .f32) (p : Fin 256) (j : Fin 2048) :
    Gen.k1_pay3 (F := Ideal) s e (ix2 p j) = ∑ g : Fin 32, s (ix2 p g) * e (ix2 g j) := by
  unfold Gen.k1_pay3 Gen.k1_pay2
  simp only [shapeCast_self]
  exact plain_dot.matmul_zero_apply (some .fp32) s e p j

/-- The zero point selected for a block entry: the same sum, over the zero points converted to numbers. -/
theorem pay4_apply (z : Vec Ideal S256x32 .i32) (e : Vec Ideal S32x2048 .f32) (p : Fin 256) (j : Fin 2048) :
    Gen.k1_pay4 (F := Ideal) z e (ix2 p j) = ∑ g : Fin 32, FloatOps.sitofp (F := Ideal) .f32 (z (ix2 p g)) * e (ix2 g j) := by
  unfold Gen.k1_pay4 Gen.k1_pay2
  simp only [shapeCast_self]
  exact plain_dot.matmul_zero_apply (some .fp32) (sitofp .f32 z) e p j

/-- The high-field block at an entry: (high field - selected zero point) * selected scale; narrowing the format is the
    identity on extended reals. -/
theorem pay5_apply (q : Vec Ideal S256x2048 .i32) (s : Vec Ideal S256x32 .f32) (z : Vec Ideal S256x32 .i32)
    (e : Vec Ideal S32x2048 .f32) (p : Fin 256) (j : Fin 2048) :
    Gen.k1_pay5 (F := Ideal) q s z e (ix2 p j)
      = (Cert.Spec.hiNib (q (ix2 p j)) - ∑ g : Fin 32, FloatOps.sitofp (F := Ideal) .f32 (z (ix2 p g)) * e (ix2 g j))
        * ∑ g : Fin 32, s (ix2 p g) * e (ix2 g j) := by
  unfold Gen.k1_pay5 Gen.k1_pay1
  simp only [shapeCast_self]
  rw [truncf_apply, mulf_apply, subf_apply, pay3_apply, pay4_apply]
  rfl

/-- The low-field block at an entry. -/
theorem pay6_apply (q : Vec Ideal S256x2048 .i32) (s : Vec Ideal S256x32 .f32) (z : Vec Ideal S256x32 .i32)
    (e : Vec Ideal S32x2048 .f32) (p : Fin 256) (j : Fin 2048) :
    Gen.k1_pay6 (F := Ideal) q s z e (ix2 p j)
      = (Cert.Spec.loNib (q (ix2 p j)) - ∑ g : Fin 32, FloatOps.sitofp (F := Ideal) .f32 (z (ix2 p g)) * e (ix2 g j))
        * ∑ g : Fin 32, s (ix2 p g) * e (ix2 g j) := by
  unfold Gen.k1_pay6 Gen.k1_pay1
  simp only [shapeCast_self]
  rw [truncf_apply, mulf_apply, subf_apply, pay3_apply, pay4_apply]
  rfl

/-! ## The two output arrays as functions of the four input arrays -/

/-- Entry (n, j) of the dequantised high fields, from the words Q, scales S, zero points Z and table E. -/
def hiAt (Q : IVec S11008x2048 32) (S : FVec Ideal S11008x32 .f32) (Z : IVec S11008x32 32) (E : FVec Ideal S32x2048 .f32)
    (n : Fin 11008) (j : Fin 2048) : EReal :=
  (Cert.Spec.hiNib (Q (ix2 n j)) - ∑ g : Fin 32, FloatOps.sitofp (F := Ideal) .f32 (Z (ix2 n g)) * E (ix2 g j))
    * ∑ g : Fin 32, S (ix2 n g) * E (ix2 g j)

/-- Entry (n, j) of the dequantised low fields. -/
def loAt (Q : IVec S11008x2048 32) (S : FVec Ideal S11008x32 .f32) (Z : IVec S11008x32 32) (E : FVec Ideal S32x2048 .f32)
    (n : Fin 11008) (j : Fin 2048) : EReal :=
  (Cert.Spec.loNib (Q (ix2 n j)) - ∑ g : Fin 32, FloatOps.sitofp (F := Ideal) .f32 (Z (ix2 n g)) * E (ix2 g j))
    * ∑ g : Fin 32, S (ix2 n g) * E (ix2 g j)

/-- The whole high-field array. -/
def hiArr (Q : IVec S11008x2048 32) (S : FVec Ideal S11008x32 .f32) (Z : IVec S11008x32 32) (E : FVec Ideal S32x2048 .f32) :
    FVec Ideal S11008x2048 .bf16 := fun i => hiAt Q S Z E (i 0) (i 1)

/-- The whole low-field array. -/
def loArr (Q : IVec S11008x2048 32) (S : FVec Ideal S11008x32 .f32) (Z : IVec S11008x32 32) (E : FVec Ideal S32x2048 .f32) :
    FVec Ideal S11008x2048 .bf16 := fun i => loAt Q S Z E (i 0) (i 1)

/-- A block entry is the array's entry, once each block it reads is the array's rows there. -/
theorem pay5_at (q : Vec Ideal S256x2048 .i32) (s : Vec Ideal S256x32 .f32) (z : Vec Ideal S256x32 .i32) (e : Vec Ideal S32x2048 .f32)
    (Q : IVec S11008x2048 32) (S : FVec Ideal S11008x32 .f32) (Z : IVec S11008x32 32) (E : FVec Ideal S32x2048 .f32)
    (p : Fin 256) (j : Fin 2048) (n : Fin 11008) (j' : Fin 2048)
    (hq : q (ix2 p j) = Q (ix2 n j')) (hs : ∀ g : Fin 32, s (ix2 p g) = S (ix2 n g))
    (hz : ∀ g : Fin 32, z (ix2 p g) = Z (ix2 n g)) (he : ∀ g : Fin 32, e (ix2 g j) = E (ix2 g j')) :
    Gen.k1_pay5 (F := Ideal) q s z e (ix2 p j) = hiAt Q S Z E n j' := by
  rw [pay5_apply, hq]
  simp only [hs, hz, he]
  rfl

/-- The same for the low fields. -/
theorem pay6_at (q : Vec Ideal S256x2048 .i32) (s : Vec Ideal S256x32 .f32) (z : Vec Ideal S256x32 .i32) (e : Vec Ideal S32x2048 .f32)
    (Q : IVec S11008x2048 32) (S : FVec Ideal S11008x32 .f32) (Z : IVec S11008x32 32) (E : FVec Ideal S32x2048 .f32)
    (p : Fin 256) (j : Fin 2048) (n : Fin 11008) (j' : Fin 2048)
    (hq : q (ix2 p j) = Q (ix2 n j')) (hs : ∀ g : Fin 32, s (ix2 p g) = S (ix2 n g))
    (hz : ∀ g : Fin 32, z (ix2 p g) = Z (ix2 n g)) (he : ∀ g : Fin 32, e (ix2 g j) = E (ix2 g j')) :
    Gen.k1_pay6 (F := Ideal) q s z e (ix2 p j) = loAt Q S Z E n j' := by
  rw [pay6_apply, hq]
  simp only [hs, hz, he]
  rfl

/-! ## From blocks to the arrays -/

theorem zero_offsets : (![0, 0] : Fin 2 → Nat) = fun _ => 0 := funext fun a => by fin_cases a <;> rfl

/-- The index maps over the 43 points: the three row-blocked inputs move with the outputs (block row t, block column 0);
    the table's block is the whole table at every point. -/
theorem idx_facts : ∀ t : Fin cfg1.N,
    win1_4.index t (0 : Fin 2) = t.val ∧ win1_4.index t (1 : Fin 2) = 0
    ∧ win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- What point t writes back to the high-field array is block t of the array's function of the four input arrays. -/
theorem flushed4_eq (c : Dev nD) (t : Fin cfg1.N) :
    (dat1 (F := Ideal) V c).flushed 4 t
      = ((cfg1.win 4).blk t).view.read (Elt Ideal) (hiArr (aQ V c) (aS V c) (aZ V c) (aE V c)) := by
  show (cfg1.win 4).cut (grid1.coords t) ((dat1 V c).after 4 t) = _
  rw [after1_4]
  unfold out1_4
  rw [View.canon_unit_zero zero_offsets]
  simp only [View.ld_unit_zero (S := S256x2048) zero_offsets, View.ld_unit_zero (S := S256x32) zero_offsets,
    View.ld_unit_zero (S := S32x2048) zero_offsets]
  obtain ⟨e40, e41, e50, e51, e00, e01, e10, e11, e20, e21, e30, e31⟩ := idx_facts t
  funext y
  have h0 : (y 0).val < 256 := (y 0).isLt
  have h1 : (y 1).val < 2048 := (y 1).isLt
  have hy : (cfg1.win 4).xinj (grid1.coords t) y = (ix2 ⟨(y 0).val, h0⟩ ⟨(y 1).val, h1⟩ : S256x2048.Idx) :=
    funext fun a => by
      match a with
      | ⟨0, _⟩ => rfl
      | ⟨1, _⟩ => rfl
  refine (congrArg (Gen.k1_pay5 (F := Ideal) (iblk1 V c 0 t) (iblk1 V c 1 t) (iblk1 V c 2 t) (iblk1 V c 3 t)) hy).trans ?_
  refine pay5_at _ _ _ _ (aQ V c) (aS V c) (aZ V c) (aE V c) ⟨(y 0).val, h0⟩ ⟨(y 1).val, h1⟩
    ((((cfg1.win 4).blk t).view.emb y) 0) ((((cfg1.win 4).blk t).view.emb y) 1) ?_ (fun g => ?_) (fun g => ?_) (fun g => ?_)
  · show V c main_v7 (((cfg1.win 0).blk t).view.emb (ix2 ⟨(y 0).val, h0⟩ ⟨(y 1).val, h1⟩)) = V c main_v7 _
    refine congrArg (V c main_v7) (funext fun a => Fin.ext ?_)
    match a with
    | ⟨0, _⟩ => show win1_0.index t (0 : Fin 2) * 256 + 1 * (y 0).val = win1_4.index t (0 : Fin 2) * 256 + 1 * (y 0).val; omega
    | ⟨1, _⟩ => show win1_0.index t (1 : Fin 2) * 2048 + 1 * (y 1).val = win1_4.index t (1 : Fin 2) * 2048 + 1 * (y 1).val; omega
  · show V c main_v9 (((cfg1.win 1).blk t).view.emb (ix2 ⟨(y 0).val, h0⟩ g)) = V c main_v9 _
    refine congrArg (V c main_v9) (funext fun a => Fin.ext ?_)
    match a with
    | ⟨0, _⟩ => show win1_1.index t (0 : Fin 2) * 256 + 1 * (y 0).val = win1_4.index t (0 : Fin 2) * 256 + 1 * (y 0).val; omega
    | ⟨1, _⟩ => show win1_1.index t (1 : Fin 2) * 32 + 1 * g.val = g.val; omega
  · show V c main_v11 (((cfg1.win 2).blk t).view.emb (ix2 ⟨(y 0).val, h0⟩ g)) = V c main_v11 _
    refine congrArg (V c main_v11) (funext fun a => Fin.ext ?_)
    match a with
    | ⟨0, _⟩ => show win1_2.index t (0 : Fin 2) * 256 + 1 * (y 0).val = win1_4.index t (0 : Fin 2) * 256 + 1 * (y 0).val; omega
    | ⟨1, _⟩ => show win1_2.index t (1 : Fin 2) * 32 + 1 * g.val = g.val; omega
  · show V c main_v21 (((cfg1.win 3).blk t).view.emb (ix2 g ⟨(y 1).val, h1⟩)) = V c main_v21 _
    refine congrArg (V c main_v21) (funext fun a => Fin.ext ?_)
    match a with
    | ⟨0, _⟩ => show win1_3.index t (0 : Fin 2) * 32 + 1 * g.val = g.val; omega
    | ⟨1, _⟩ => show win1_3.index t (1 : Fin 2) * 2048 + 1 * (y 1).val = win1_4.index t (1 : Fin 2) * 2048 + 1 * (y 1).val; omega

/-- An index of the array is in point t's block iff each coordinate is in the block's range on its axis. -/
theorem mem_blk4 (t : Fin cfg1.N) (i : S11008x2048.Idx) :
    i ∈ ((cfg1.win 4).blk t).view.set ↔ ∀ a : Fin 2, win1_4.index t a * S256x2048.size a ≤ (i a).val
      ∧ (i a).val < win1_4.index t a * S256x2048.size a + S256x2048.size a := by
  show i ∈ ((View.whole main_v22_0).slice (win1_4.rect t)).set ↔ _
  rw [View.set_slice_whole, Rect.mem_set_unit]
  exact Iff.rfl

/-- Row n lies in the block of point n / 256: the 43 blocks of 256 rows tile the 11008 rows. -/
theorem cover4 (i : S11008x2048.Idx) :
    ∃ t : Fin cfg1.N, (cfg1.win 4).flush t = true ∧ i ∈ ((cfg1.win 4).blk t).view.set := by
  have hN : cfg1.N = 43 := N_1
  have hi0 : (i 0).val < 11008 := (i 0).isLt
  have hi1 : (i 1).val < 2048 := (i 1).isLt
  refine ⟨⟨(i 0).val / 256, by rw [hN]; omega⟩, flush1_4 _, ?_⟩
  rw [mem_blk4]
  obtain ⟨e40, e41, e50, e51, -⟩ := idx_facts ⟨(i 0).val / 256, by rw [hN]; omega⟩
  intro a
  match a with
  | ⟨0, _⟩ =>
    show win1_4.index _ (0 : Fin 2) * 256 ≤ (i 0).val ∧ (i 0).val < win1_4.index _ (0 : Fin 2) * 256 + 256
    rw [e40]
    show (i 0).val / 256 * 256 ≤ (i 0).val ∧ (i 0).val < (i 0).val / 256 * 256 + 256
    omega
  | ⟨1, _⟩ =>
    show win1_4.index _ (1 : Fin 2) * 2048 ≤ (i 1).val ∧ (i 1).val < win1_4.index _ (1 : Fin 2) * 2048 + 2048
    rw [e41]
    omega

/-- The high-field array after the launch is that function of the four arrays it reads. -/
theorem final4 (c : Dev nD) :
    (dat1 (F := Ideal) V c).arrAt 4 cfg1.N = hiArr (aQ V c) (aS V c) (aZ V c) (aE V c) :=
  (dat1 (F := Ideal) V c).arrAt_eq_of_cover 4 (hiArr (aQ V c) (aS V c) (aZ V c) (aE V c))
    (fun t _ => flushed4_eq V c t) cover4

/-- What point t writes back to the low-field array is block t of the array's function of the four input arrays. -/
theorem flushed5_eq (c : Dev nD) (t : Fin cfg1.N) :
    (dat1 (F := Ideal) V c).flushed 5 t
      = ((cfg1.win 5).blk t).view.read (Elt Ideal) (loArr (aQ V c) (aS V c) (aZ V c) (aE V c)) := by
  show (cfg1.win 5).cut (grid1.coords t) ((dat1 V c).after 5 t) = _
  rw [after1_5]
  unfold out1_5
  rw [View.canon_unit_zero zero_offsets]
  simp only [View.ld_unit_zero (S := S256x2048) zero_offsets, View.ld_unit_zero (S := S256x32) zero_offsets,
    View.ld_unit_zero (S := S32x2048) zero_offsets]
  obtain ⟨e40, e41, e50, e51, e00, e01, e10, e11, e20, e21, e30, e31⟩ := idx_facts t
  funext y
  have h0 : (y 0).val < 256 := (y 0).isLt
  have h1 : (y 1).val < 2048 := (y 1).isLt
  have hy : (cfg1.win 5).xinj (grid1.coords t) y = (ix2 ⟨(y 0).val, h0⟩ ⟨(y 1).val, h1⟩ : S256x2048.Idx) :=
    funext fun a => by
      match a with
      | ⟨0, _⟩ => rfl
      | ⟨1, _⟩ => rfl
  refine (congrArg (Gen.k1_pay6 (F := Ideal) (iblk1 V c 0 t) (iblk1 V c 1 t) (iblk1 V c 2 t) (iblk1 V c 3 t)) hy).trans ?_
  refine pay6_at _ _ _ _ (aQ V c) (aS V c) (aZ V c) (aE V c) ⟨(y 0).val, h0⟩ ⟨(y 1).val, h1⟩
    ((((cfg1.win 5).blk t).view.emb y) 0) ((((cfg1.win 5).blk t).view.emb y) 1) ?_ (fun g => ?_) (fun g => ?_) (fun g => ?_)
  · show V c main_v7 (((cfg1.win 0).blk t).view.emb (ix2 ⟨(y 0).val, h0⟩ ⟨(y 1).val, h1⟩)) = V c main_v7 _
    refine congrArg (V c main_v7) (funext fun a => Fin.ext ?_)
    match a with
    | ⟨0, _⟩ => show win1_0.index t (0 : Fin 2) * 256 + 1 * (y 0).val = win1_5.index t (0 : Fin 2) * 256 + 1 * (y 0).val; omega
    | ⟨1, _⟩ => show win1_0.index t (1 : Fin 2) * 2048 + 1 * (y 1).val = win1_5.index t (1 : Fin 2) * 2048 + 1 * (y 1).val; omega
  · show V c main_v9 (((cfg1.win 1).blk t).view.emb (ix2 ⟨(y 0).val, h0⟩ g)) = V c main_v9 _
    refine congrArg (V c main_v9) (funext fun a => Fin.ext ?_)
    match a with
    | ⟨0, _⟩ => show win1_1.index t (0 : Fin 2) * 256 + 1 * (y 0).val = win1_5.index t (0 : Fin 2) * 256 + 1 * (y 0).val; omega
    | ⟨1, _⟩ => show win1_1.index t (1 : Fin 2) * 32 + 1 * g.val = g.val; omega
  · show V c main_v11 (((cfg1.win 2).blk t).view.emb (ix2 ⟨(y 0).val, h0⟩ g)) = V c main_v11 _
    refine congrArg (V c main_v11) (funext fun a => Fin.ext ?_)
    match a with
    | ⟨0, _⟩ => show win1_2.index t (0 : Fin 2) * 256 + 1 * (y 0).val = win1_5.index t (0 : Fin 2) * 256 + 1 * (y 0).val; omega
    | ⟨1, _⟩ => show win1_2.index t (1 : Fin 2) * 32 + 1 * g.val = g.val; omega
  · show V c main_v21 (((cfg1.win 3).blk t).view.emb (ix2 g ⟨(y 1).val, h1⟩)) = V c main_v21 _
    refine congrArg (V c main_v21) (funext fun a => Fin.ext ?_)
    match a with
    | ⟨0, _⟩ => show win1_3.index t (0 : Fin 2) * 32 + 1 * g.val = g.val; omega
    | ⟨1, _⟩ => show win1_3.index t (1 : Fin 2) * 2048 + 1 * (y 1).val = win1_5.index t (1 : Fin 2) * 2048 + 1 * (y 1).val; omega

/-- An index of the array is in point t's block iff each coordinate is in the block's range on its axis. -/
theorem mem_blk5 (t : Fin cfg1.N) (i : S11008x2048.Idx) :
    i ∈ ((cfg1.win 5).blk t).view.set ↔ ∀ a : Fin 2, win1_5.index t a * S256x2048.size a ≤ (i a).val
      ∧ (i a).val < win1_5.index t a * S256x2048.size a + S256x2048.size a := by
  show i ∈ ((View.whole main_v22_1).slice (win1_5.rect t)).set ↔ _
  rw [View.set_slice_whole, Rect.mem_set_unit]
  exact Iff.rfl

/-- Row n lies in the block of point n / 256: the 43 blocks of 256 rows tile the 11008 rows. -/
theorem cover5 (i : S11008x2048.Idx) :
    ∃ t : Fin cfg1.N, (cfg1.win 5).flush t = true ∧ i ∈ ((cfg1.win 5).blk t).view.set := by
  have hN : cfg1.N = 43 := N_1
  have hi0 : (i 0).val < 11008 := (i 0).isLt
  have hi1 : (i 1).val < 2048 := (i 1).isLt
  refine ⟨⟨(i 0).val / 256, by rw [hN]; omega⟩, flush1_5 _, ?_⟩
  rw [mem_blk5]
  obtain ⟨e40, e41, e50, e51, -⟩ := idx_facts ⟨(i 0).val / 256, by rw [hN]; omega⟩
  intro a
  match a with
  | ⟨0, _⟩ =>
    show win1_5.index _ (0 : Fin 2) * 256 ≤ (i 0).val ∧ (i 0).val < win1_5.index _ (0 : Fin 2) * 256 + 256
    rw [e50]
    show (i 0).val / 256 * 256 ≤ (i 0).val ∧ (i 0).val < (i 0).val / 256 * 256 + 256
    omega
  | ⟨1, _⟩ =>
    show win1_5.index _ (1 : Fin 2) * 2048 ≤ (i 1).val ∧ (i 1).val < win1_5.index _ (1 : Fin 2) * 2048 + 2048
    rw [e51]
    omega

/-- The low-field array after the launch is that function of the four arrays it reads. -/
theorem final5 (c : Dev nD) :
    (dat1 (F := Ideal) V c).arrAt 5 cfg1.N = loArr (aQ V c) (aS V c) (aZ V c) (aE V c) :=
  (dat1 (F := Ideal) V c).arrAt_eq_of_cover 5 (loArr (aQ V c) (aS V c) (aZ V c) (aE V c))
    (fun t _ => flushed5_eq V c t) cover5

/-! ## The two statements -/

/-- The high-field output at weight row n, word j. -/
theorem dequant_hi (c : Dev nD) (n : Fin 11008) (j : Fin 2048) :
    (dat1 (F := Ideal) V c).arrAt 4 cfg1.N (ix2 n j)
      = (Cert.Spec.hiNib (aQ V c (ix2 n j))
          - ∑ g : Fin 32, FloatOps.sitofp (F := Ideal) .f32 (aZ V c (ix2 n g)) * aE V c (ix2 g j))
        * ∑ g : Fin 32, aS V c (ix2 n g) * aE V c (ix2 g j) := by
  rw [final4]
  rfl

/-- The low-field output at weight row n, word j. -/
theorem dequant_lo (c : Dev nD) (n : Fin 11008) (j : Fin 2048) :
    (dat1 (F := Ideal) V c).arrAt 5 cfg1.N (ix2 n j)
      = (Cert.Spec.loNib (aQ V c (ix2 n j))
          - ∑ g : Fin 32, FloatOps.sitofp (F := Ideal) .f32 (aZ V c (ix2 n g)) * aE V c (ix2 g j))
        * ∑ g : Fin 32, aS V c (ix2 n g) * aE V c (ix2 g j) := by
  rw [final5]
  rfl

end Cert.KernelIdeal.Val

end
-- ==== Proof.LibRowsDot.lean ====
/-
  A matrix product of an M-by-K array with an N-by-K array, both contracted on their last axis, read at an entry.

  With dimension numbers "columns of the left against columns of the right, no batch axis", the operand indices
  at result entry (r, c) and contraction position k are (r, k) on the left and (c, k) on the right: each result
  entry is the dot product of a row of the left with a row of the right. So, over the extended reals, a product
  accumulated into the zero array and a host dot_general are both  ∑ k, lhs (r, k) * rhs (c, k).  Stated for any
  dimension record of that form, whatever its extents.
-/
import Idealize.ShloMosaic.Lib.ValueIdx
import Idealize.ShloMosaic.PureOps.Ideal.Laws

noncomputable section

namespace Idealize.ShloMosaic.RowsDot

open Idealize.ShloMosaic Idealize.ShloMosaic.ValueIdx

variable {M K N : Nat}

/-- The dimension numbers of an M×K by N×K product, rows against rows: last axis against last axis, nothing batched. -/
structure IsRowsByRows (d : DotDims (⟨2, ![M, K]⟩ : Shape) (⟨2, ![N, K]⟩ : Shape) (⟨2, ![M, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![M, K]⟩ : Shape) (⟨2, ![N, K]⟩ : Shape) (⟨2, ![M, N]⟩ : Shape)}

/-- One axis is contracted. -/
theorem IsRowsByRows.rank_contr (h : IsRowsByRows d) : d.contr.rank = 1 := by
  rw [d.rank_contr, h.lc]; rfl

/-- Its extent is K. -/
theorem IsRowsByRows.size_contr (h : IsRowsByRows d) : d.contr.size ⟨0, by rw [h.rank_contr]; exact Nat.one_pos⟩ = K := by
  have e := d.size_contr 0 (by rw [h.lc]; exact Nat.one_pos)
  rw [e]
  simp only [h.lc, List.getElem_cons_zero]
  rfl

/-- A result index read at two positions that are the same number is the same coordinate. -/
private theorem coord_congr (j : (⟨2, ![M, N]⟩ : Shape).Idx) (p q : Nat) (hp : p < (⟨2, ![M, N]⟩ : Shape).rank)
    (hq : q < (⟨2, ![M, N]⟩ : Shape).rank) (e : p = q) : (j ⟨p, hp⟩).val = (j ⟨q, hq⟩).val := by
  subst e; rfl

/-- The left operand's row is the result's row. -/
theorem IsRowsByRows.lhs_row (h : IsRowsByRows d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction position. -/
theorem IsRowsByRows.lhs_col (h : IsRowsByRows d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the result's column. -/
theorem IsRowsByRows.rhs_row (h : IsRowsByRows d) (j : (⟨2, ![M, N]⟩ : Shape).Idx) (k : d.contr.Idx) :
    (d.rhsIdx j k 0).val = (j 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The right operand's column is the contraction position. -/
theorem IsRowsByRows.rhs_col (h : IsRowsByRows d) (j : (⟨2, ![M, N]⟩ : Shape).Idx) (k : d.contr.Idx) :
    (d.rhsIdx j k 1).val = (k ⟨0, by rw [h.rank_contr]; exact Nat.one_pos⟩).val :=
  d.rhsIdx_val_of_single h.rc j k

/-- The sum over the contraction shape's positions, re-indexed by its one coordinate: entry (r, c) of the product
    is the dot product of row r of the left operand with row c of the right operand. -/
theorem IsRowsByRows.sum_contr (h : IsRowsByRows d) {α : Type} [AddCommMonoid α] [Mul α]
    (lhs : (⟨2, ![M, K]⟩ : Shape).Idx → α) (rhs : (⟨2, ![N, K]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 c k) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 c k :=
    funext fun a => Fin.ext (by
      match a with
      | ⟨0, _⟩ => exact h.rhs_row _ _
      | ⟨1, _⟩ => exact (h.rhs_col _ _).trans hk)
  rw [el, er]

/-- A kernel's product into the zero accumulator, over the extended reals, at entry (r, c). -/
theorem IsRowsByRows.matmul_zero_apply (h : IsRowsByRows d) {φ₁ φ₂ : FTy} (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 c k) := by
  rw [Ideal.matmul_constant_zero_apply]
  exact h.sum_contr lhs rhs r c

/-- A host dot_general, over the extended reals, at entry (r, c). -/
theorem IsRowsByRows.dotGeneral_apply (h : IsRowsByRows d) {φ₁ φ₂ : FTy} (prec : Option ContractPrecision) (sched : HostSchedule)
    (lhs : FVec Ideal (⟨2, ![M, K]⟩ : Shape) φ₁) (rhs : FVec Ideal (⟨2, ![N, K]⟩ : Shape) φ₂) (r : Fin M) (c : Fin N) :
    FloatOps.dotGeneral d prec sched lhs rhs (ix2 r c) = ∑ k : Fin K, lhs (ix2 r k) * rhs (ix2 c k) := by
  rw [Ideal.dotGeneral_apply]
  exact h.sum_contr lhs rhs r c

end Idealize.ShloMosaic.RowsDot

end
-- ==== Proof.Region2.lean ====
/-
  The third launch (the two contractions and the bias), as one function of the arrays it reads.
-/
import proofs.«417241_j81913616270135_3_alg».proof.Proof.Gen.KernelIdeal.Frame
import proofs.«417241_j81913616270135_3_alg».proof.Proof.Spec
import proofs.«417241_j81913616270135_3_alg».proof.Proof.Arrays
import proofs.«417241_j81913616270135_3_alg».proof.Proof.LibRowsDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! ## One block: the two contractions and the bias at an entry -/

/-- The contractions' dimension numbers: last axis against last axis, nothing batched, so each entry of a product is
    a row of the left operand against a row of the right operand. -/
theorem rowsByRows :
    RowsDot.IsRowsByRows (M := 1024) (K := 2048) (N := 256) dot_S1024x2048_S256x2048_S1024x256_1_1_0_0_n_n :=
  ⟨rfl, rfl, rfl, rfl, rfl, rfl⟩

/-- The bias row repeated down the block's 1024 rows, read at an entry: the row's entry in that column. -/
theorem bias_rows (b : FVec Ideal S1x256 .f32) (p : Fin 1024) (q : Fin 256) :
    broadcastTo S1024x256 b broadcasts_S1x256_S1024x256 (ix2 p q) = b (ix2 (0 : Fin 1) q) := by
  refine broadcastTo_apply b _ _ _ fun a => ?_
  match a with
  | ⟨0, _⟩ => rfl
  | ⟨1, _⟩ => rfl

/-- A block of the output at entry (p, q): row p of the even-column block against row q of the high-field block, plus
    row p of the odd-column block against row q of the low-field block, plus the bias in column q. The reshapes are
    identities, each product is accumulated into zero, and the bias row is repeated down the rows. -/
theorem pay_apply (xe xo : Vec Ideal S1024x2048 .bf16) (wh wl : Vec Ideal S256x2048 .bf16) (b : Vec Ideal S1x256 .f32)
    (p : Fin 1024) (q : Fin 256) :
    Gen.k2_pay1 (F := Ideal) xe xo wh wl b (ix2 p q)
      = (∑ j : Fin 2048, xe (ix2 p j) * wh (ix2 q j) + ∑ j : Fin 2048, xo (ix2 p j) * wl (ix2 q j))
        + b (ix2 (0 : Fin 1) q) := by
  unfold Gen.k2_pay1
  simp only [shapeCast_self]
  rw [addf_apply, addf_apply, bias_rows]
  exact congrArg₂ (· + ·) (congrArg₂ (· + ·) (rowsByRows.matmul_zero_apply none xe wh p q)
    (rowsByRows.matmul_zero_apply none xo wl p q)) rfl

/-- The launch's output at row r, feature n, as one function of the five arrays it reads. -/
def outAt (xe xo : FVec Ideal S8192x2048 .bf16) (wh wl : FVec Ideal S11008x2048 .bf16) (b : FVec Ideal S1x11008 .f32)
    (r : Fin 8192) (n : Fin 11008) : EReal :=
  (∑ j : Fin 2048, xe (ix2 r j) * wh (ix2 n j) + ∑ j : Fin 2048, xo (ix2 r j) * wl (ix2 n j)) + b (ix2 (0 : Fin 1) n)

/-- A block's entry (p, q) is the whole-array function at (r, n), once row p of each activation block is row r of its
    array, row q of each weight block is row n of its array, and the bias block's column q is the bias row's column n. -/
theorem pay_outAt (Xe Xo : FVec Ideal S8192x2048 .bf16) (Wh Wl : FVec Ideal S11008x2048 .bf16) (B : FVec Ideal S1x11008 .f32)
    (xe xo : Vec Ideal S1024x2048 .bf16) (wh wl : Vec Ideal S256x2048 .bf16) (b : Vec Ideal S1x256 .f32)
    (p : Fin 1024) (q : Fin 256) (r : Fin 8192) (n : Fin 11008)
    (hxe : ∀ j : Fin 2048, xe (ix2 p j) = Xe (ix2 r j)) (hxo : ∀ j : Fin 2048, xo (ix2 p j) = Xo (ix2 r j))
    (hwh : ∀ j : Fin 2048, wh (ix2 q j) = Wh (ix2 n j)) (hwl : ∀ j : Fin 2048, wl (ix2 q j) = Wl (ix2 n j))
    (hb : b (ix2 (0 : Fin 1) q) = B (ix2 (0 : Fin 1) n)) :
    Gen.k2_pay1 (F := Ideal) xe xo wh wl b (ix2 p q) = outAt Xe Xo Wh Wl B r n := by
  refine (pay_apply xe xo wh wl b p q).trans ?_
  unfold outAt
  refine congrArg₂ (· + ·) (congrArg₂ (· + ·) ?_ ?_) hb
  · exact Finset.sum_congr rfl fun j _ => congrArg₂ (· * ·) (hxe j) (hwh j)
  · exact Finset.sum_congr rfl fun j _ => congrArg₂ (· * ·) (hxo j) (hwl j)

/-! ## From blocks to the array -/

variable (V : (c : Dev nD) → (b : Ref sig .tc) → Buf (Elt Ideal) ((c : Thread nD τ).loc b))

/-- The output array the launch leaves: `outAt` of the arrays as the launch finds them, entry by entry. -/
abbrev outArr (c : Dev nD) : S8192x11008.Idx → Elt Ideal .f32 := fun i =>
  outAt (aXe V c) (aXo V c) (aWhi V c) (aWlo V c) (aB V c) (i 0) (i 1)

/-- Zero offsets, however spelt. -/
theorem product_zero_offsets : (![0, 0] : Fin 2 → Nat) = fun _ => 0 := funext fun a => by fin_cases a <;> rfl

/-- The index maps over the 8 × 43 grid: the activation blocks move with the output's row block and stay at column block
    0; the weight blocks move with the output's column block and stay at column block 0; the bias block stays at row
    block 0 and moves with the output's column block; the output's block at point t is (t / 43, t % 43). -/
theorem block_indices : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (1 : Fin 2) ∧ win2_2.index t (1 : Fin 2) = 0
    ∧ win2_3.index t (0 : Fin 2) = win2_5.index t (1 : Fin 2) ∧ win2_3.index t (1 : Fin 2) = 0
    ∧ win2_4.index t (0 : Fin 2) = 0 ∧ win2_4.index t (1 : Fin 2) = win2_5.index t (1 : Fin 2)
    ∧ win2_5.index t (0 : Fin 2) = t.val / 43 ∧ win2_5.index t (1 : Fin 2) = t.val % 43 :=
  (by decide +kernel : ∀ t : Fin grid2.N, _)

/-- What grid point t writes back is block t of `outArr`: each block entry the body reads is the array entry in the
    row block, or column block, that the output's rectangle names (a block's coordinate is index × extent + offset). -/
theorem product_flushed_eq (c : Dev nD) (t : Fin cfg2.N) :
    (dat2 (F := Ideal) V c).flushed 5 t = ((cfg2.win 5).blk t).view.read (Elt Ideal) (outArr V c) := by
  show (cfg2.win 5).cut (grid2.coords t) ((dat2 V c).after 5 t) = _
  rw [after2_5]
  unfold out2_5
  rw [View.canon_unit_zero product_zero_offsets]
  simp only [View.ld_unit_zero (S := S1024x2048) product_zero_offsets, View.ld_unit_zero (S := S256x2048) product_zero_offsets,
    View.ld_unit_zero (S := S1x256) product_zero_offsets]
  obtain ⟨e00, e01, e10, e11, e20, e21, e30, e31, e40, e41, -, -⟩ := block_indices t
  funext j
  obtain ⟨p, q, rfl⟩ : ∃ (p : Fin 1024) (q : Fin 256), j = ix2 p q := ⟨j 0, j 1, eq_ix2 j⟩
  show Gen.k2_pay1 (F := Ideal) (iblk2 V c 0 t) (iblk2 V c 1 t) (iblk2 V c 2 t) (iblk2 V c 3 t) (iblk2 V c 4 t) (ix2 p q)
    = outArr V c (((cfg2.win 5).blk t).view.emb (ix2 p q))
  refine pay_outAt (aXe V c) (aXo V c) (aWhi V c) (aWlo V c) (aB V c) _ _ _ _ _ p q _ _ ?_ ?_ ?_ ?_ ?_
  · intro j
    show V c main_v4 (((cfg2.win 0).blk t).view.emb (ix2 p j)) = V c main_v4 _
    refine congrArg (V c main_v4) (funext fun a => Fin.ext ?_)
    match a with
    | ⟨0, _⟩ => show win2_0.index t (0 : Fin 2) * 1024 + 1 * p.val = win2_5.index t (0 : Fin 2) * 1024 + 1 * p.val; omega
    | ⟨1, _⟩ => show win2_0.index t (1 : Fin 2) * 2048 + 1 * j.val = j.val; omega
  · intro j
    show V c main_v6 (((cfg2.win 1).blk t).view.emb (ix2 p j)) = V c main_v6 _
    refine congrArg (V c main_v6) (funext fun a => Fin.ext ?_)
    match a with
    | ⟨0, _⟩ => show win2_1.index t (0 : Fin 2) * 1024 + 1 * p.val = win2_5.index t (0 : Fin 2) * 1024 + 1 * p.val; omega
    | ⟨1, _⟩ => show win2_1.index t (1 : Fin 2) * 2048 + 1 * j.val = j.val; omega
  · intro j
    show V c main_v22_0 (((cfg2.win 2).blk t).view.emb (ix2 q j)) = V c main_v22_0 _
    refine congrArg (V c main_v22_0) (funext fun a => Fin.ext ?_)
    match a with
    | ⟨0, _⟩ => show win2_2.index t (0 : Fin 2) * 256 + 1 * q.val = win2_5.index t (1 : Fin 2) * 256 + 1 * q.val; omega
    | ⟨1, _⟩ => show win2_2.index t (1 : Fin 2) * 2048 + 1 * j.val = j.val; omega
  · intro j
    show V c main_v22_1 (((cfg2.win 3).blk t).view.emb (ix2 q j)) = V c main_v22_1 _
    refine congrArg (V c main_v22_1) (funext fun a => Fin.ext ?_)
    match a with
    | ⟨0, _⟩ => show win2_3.index t (0 : Fin 2) * 256 + 1 * q.val = win2_5.index t (1 : Fin 2) * 256 + 1 * q.val; omega
    | ⟨1, _⟩ => show win2_3.index t (1 : Fin 2) * 2048 + 1 * j.val = j.val; omega
  · show V c main_v12 (((cfg2.win 4).blk t).view.emb (ix2 (0 : Fin 1) q)) = V c main_v12 _
    refine congrArg (V c main_v12) (funext fun a => Fin.ext ?_)
    match a with
    | ⟨0, _⟩ => show win2_4.index t (0 : Fin 2) * 1 + 1 * 0 = 0; omega
    | ⟨1, _⟩ => show win2_4.index t (1 : Fin 2) * 256 + 1 * q.val = win2_5.index t (1 : Fin 2) * 256 + 1 * q.val; omega

/-- An entry of the output array is in point t's block iff each coordinate is in the block's range on its axis. -/
theorem product_mem_block (t : Fin cfg2.N) (i : S8192x11008.Idx) :
    i ∈ ((cfg2.win 5).blk t).view.set ↔ ∀ a : Fin 2, win2_5.index t a * S1024x256.size a ≤ (i a).val
      ∧ (i a).val < win2_5.index t a * S1024x256.size a + S1024x256.size a := by
  show i ∈ ((View.whole main_v23).slice (win2_5.rect t)).set ↔ _
  rw [View.set_slice_whole, Rect.mem_set_unit]
  exact Iff.rfl

/-- Every entry is in some point's block: entry (r, n) is in the block of the point (r / 1024) · 43 + n / 256, whose
    output block is (r / 1024, n / 256). -/
theorem product_covered (i : S8192x11008.Idx) :
    ∃ t : Fin cfg2.N, (cfg2.win 5).flush t = true ∧ i ∈ ((cfg2.win 5).blk t).view.set := by
  have hi0 : (i 0).val < 8192 := (i 0).isLt
  have hi1 : (i 1).val < 11008 := (i 1).isLt
  have hlt : (i 0).val / 1024 * 43 + (i 1).val / 256 < 344 := by omega
  obtain ⟨t, ht⟩ : ∃ t : Fin cfg2.N, t.val = (i 0).val / 1024 * 43 + (i 1).val / 256 :=
    ⟨⟨_, hlt.trans_eq N_2.symm⟩, rfl⟩
  obtain ⟨-, -, -, -, -, -, -, -, -, -, b0, b1⟩ := block_indices t
  refine ⟨t, flush2_5 t, ?_⟩
  rw [product_mem_block]
  intro a
  match a with
  | ⟨0, _⟩ =>
    show win2_5.index t (0 : Fin 2) * 1024 ≤ (i 0).val ∧ (i 0).val < win2_5.index t (0 : Fin 2) * 1024 + 1024
    omega
  | ⟨1, _⟩ =>
    show win2_5.index t (1 : Fin 2) * 256 ≤ (i 1).val ∧ (i 1).val < win2_5.index t (1 : Fin 2) * 256 + 256
    omega

/-- The output at token row r, feature n: even columns against the high fields, odd columns against the low fields, plus
    the bias. -/
theorem matmul_final (c : Dev nD) (r : Fin 8192) (n : Fin 11008) :
    (dat2 (F := Ideal) V c).arrAt 5 cfg2.N (ix2 r n)
      = (∑ j : Fin 2048, aXe V c (ix2 r j) * aWhi V c (ix2 n j)
          + ∑ j : Fin 2048, aXo V c (ix2 r j) * aWlo V c (ix2 n j))
        + aB V c (ix2 (0 : Fin 1) n) := by
  have h := (dat2 (F := Ideal) V c).arrAt_eq_of_cover 5 (outArr V c) (fun t _ => product_flushed_eq V c t) product_covered
  exact congrFun h (ix2 r n)

end Cert.KernelIdeal.Val

end
-- ==== Proof.HostGlue.lean ====
/-
  The host operations between the launches, read at an index: the reshapes and the two strided slices.
-/
import proofs.«417241_j81913616270135_3_alg».proof.Proof.Gen.KernelIdeal.Frame
import proofs.«417241_j81913616270135_3_alg».proof.Proof.Spec
import proofs.«417241_j81913616270135_3_alg».proof.Proof.Arrays
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The reshapes and the slices read at an index -/

section Layout
variable {α : Type}

/-- The flat array of words read as 11008 rows of 2048: word j of row n is flat word n * 2048 + j
    (both sides have the same row-major position). -/
theorem words_apply (x : S22544384.Idx → α) (h : S22544384.ShapeCasts S11008x2048) (n : Fin 11008) (j : Fin 2048) :
    shapeCast S11008x2048 x h (ix2 n j) = x (ix1 (Cert.Spec.qix n j)) :=
  shapeCast_apply x h (ix2 n j) (ix1 (Cert.Spec.qix n j))
    (by rw [Shape.rowMajor_val_one, Shape.rowMajor_val_two]; show n.val * 2048 + j.val = n.val * 2048 + j.val; rfl)

/-- The column of 352256 groups read flat and then as 11008 rows of 32: group g of row n is entry n * 32 + g
    of the column. -/
theorem groups_apply (x : S352256x1.Idx → α) (h1 : S352256x1.ShapeCasts S352256) (h2 : S352256.ShapeCasts S11008x32)
    (n : Fin 11008) (g : Fin 32) :
    shapeCast S11008x32 (shapeCast S352256 x h1) h2 (ix2 n g) = x (ix2 (Cert.Spec.gix n g) (0 : Fin 1)) := by
  refine (shapeCast_apply _ h2 (ix2 n g) (ix1 (Cert.Spec.gix n g)) ?_).trans
    (shapeCast_apply x h1 (ix1 (Cert.Spec.gix n g)) (ix2 (Cert.Spec.gix n g) (0 : Fin 1)) ?_)
  · rw [Shape.rowMajor_val_one, Shape.rowMajor_val_two]
    show n.val * 32 + g.val = n.val * 32 + g.val
    rfl
  · rw [Shape.rowMajor_val_two, Shape.rowMajor_val_one]
    show (Cert.Spec.gix n g).val * 1 + 0 = (Cert.Spec.gix n g).val
    omega

/-- The bias read as one row of 11008: entry n of the row is entry n. -/
theorem bias_apply (x : S11008.Idx → α) (h : S11008.ShapeCasts S1x11008) (n : Fin 11008) :
    shapeCast S1x11008 x h (ix2 (0 : Fin 1) n) = x (ix1 n) :=
  shapeCast_apply x h (ix2 (0 : Fin 1) n) (ix1 n)
    (by rw [Shape.rowMajor_val_one, Shape.rowMajor_val_two]; show n.val = 0 * 11008 + n.val; omega)

/-- A row of 4096 columns read as 2048 pairs, the pair's member o kept, the unit axis dropped: entry j of the
    result is column 2 j + o. -/
theorem pairs_apply (o : Nat) (ho : o < 2) (x : S8192x4096.Idx → α) (h1 : S8192x4096.ShapeCasts S8192x2048x2)
    (hs : S8192x2048x2.Slices ![0, 0, o] S8192x2048x1) (h2 : S8192x2048x1.ShapeCasts S8192x2048)
    (r : Fin 8192) (j : Fin 2048) (k : Fin 4096) (hk : k.val = 2 * j.val + o) :
    shapeCast S8192x2048 (extractStridedSlice S8192x2048x1 ![0, 0, o] (shapeCast S8192x2048x2 x h1) hs) h2 (ix2 r j)
      = x (ix2 r k) := by
  refine (shapeCast_apply _ h2 (ix2 r j) (ix3 r j (0 : Fin 1)) ?_).trans ?_
  · rw [Shape.rowMajor_val_three, Shape.rowMajor_val_two]
    show (r.val * 2048 + j.val) * 1 + 0 = r.val * 2048 + j.val
    omega
  refine (extractStridedSlice_apply _ _ hs (ix3 r j (0 : Fin 1)) (ix3 r j (⟨o, ho⟩ : Fin 2)) (fun a => ?_)).trans ?_
  · match a with
    | ⟨0, _⟩ => exact (Nat.zero_add _).symm
    | ⟨1, _⟩ => exact (Nat.zero_add _).symm
    | ⟨2, _⟩ => exact (Nat.add_zero _).symm
  exact shapeCast_apply x h1 (ix3 r j (⟨o, ho⟩ : Fin 2)) (ix2 r k)
    (by rw [Shape.rowMajor_val_two, Shape.rowMajor_val_three]
        show r.val * 4096 + k.val = (r.val * 2048 + j.val) * 2 + o
        omega)

end Layout

/-! ## Buffers across the stretches of host operations -/

/-- A stretch of host operations leaves a buffer that none of them writes: each operation writes one buffer,
    and that buffer is another one. -/
local macro "stretch_keeps" : tactic => `(tactic| (
  refine StableHlo.after_of_forall_not_mem _ _ (List.forall_iff_forall_mem.mp ?_)
  simp only [hostOps0, hostOps1, hostOps1_1, hostOps1_2, hostOps3, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- Argument 1 at the first launch's exit is as launched: the first stretch and the launch leave it. -/
theorem W2_arg1 (c : Dev nD) :
    W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by stretch_keeps
    _ = m ((c : Thread nD τ).loc main_arg1) := rfl

/-- Argument 2 at the first launch's exit is as launched: the first stretch and the launch leave it. -/
theorem W2_arg2 (c : Dev nD) :
    W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by stretch_keeps
    _ = m ((c : Thread nD τ).loc main_arg2) := rfl

/-- Argument 3 at the first launch's exit is as launched: the first stretch and the launch leave it. -/
theorem W2_arg3 (c : Dev nD) :
    W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by stretch_keeps
    _ = m ((c : Thread nD τ).loc main_arg3) := rfl

/-- Argument 4 at the first launch's exit is as launched: the first stretch and the launch leave it. -/
theorem W2_arg4 (c : Dev nD) :
    W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by stretch_keeps
    _ = m ((c : Thread nD τ).loc main_arg4) := rfl

/-- The second and third stretches before the second launch leave %v4. -/
theorem W5_v4_eq (c : Dev nD) :
    W5 m ρ c (Proc.devRef .tc main_v4) = StableHlo.after hostOps1 (W2 m ρ c) (Proc.devRef .tc main_v4) :=
  calc W5 m ρ c (Proc.devRef .tc main_v4)
    _ = W4 m ρ c (Proc.devRef .tc main_v4) := by stretch_keeps
    _ = W3 m ρ c (Proc.devRef .tc main_v4) := by stretch_keeps
    _ = StableHlo.after hostOps1 (W2 m ρ c) (Proc.devRef .tc main_v4) := rfl

/-- The second and third stretches before the second launch leave %v6. -/
theorem W5_v6_eq (c : Dev nD) :
    W5 m ρ c (Proc.devRef .tc main_v6) = StableHlo.after hostOps1 (W2 m ρ c) (Proc.devRef .tc main_v6) :=
  calc W5 m ρ c (Proc.devRef .tc main_v6)
    _ = W4 m ρ c (Proc.devRef .tc main_v6) := by stretch_keeps
    _ = W3 m ρ c (Proc.devRef .tc main_v6) := by stretch_keeps
    _ = StableHlo.after hostOps1 (W2 m ρ c) (Proc.devRef .tc main_v6) := rfl

/-- The second and third stretches before the second launch leave %v7. -/
theorem W5_v7_eq (c : Dev nD) :
    W5 m ρ c (Proc.devRef .tc main_v7) = StableHlo.after hostOps1 (W2 m ρ c) (Proc.devRef .tc main_v7) :=
  calc W5 m ρ c (Proc.devRef .tc main_v7)
    _ = W4 m ρ c (Proc.devRef .tc main_v7) := by stretch_keeps
    _ = W3 m ρ c (Proc.devRef .tc main_v7) := by stretch_keeps
    _ = StableHlo.after hostOps1 (W2 m ρ c) (Proc.devRef .tc main_v7) := rfl

/-- The second and third stretches before the second launch leave %v9. -/
theorem W5_v9_eq (c : Dev nD) :
    W5 m ρ c (Proc.devRef .tc main_v9) = StableHlo.after hostOps1 (W2 m ρ c) (Proc.devRef .tc main_v9) :=
  calc W5 m ρ c (Proc.devRef .tc main_v9)
    _ = W4 m ρ c (Proc.devRef .tc main_v9) := by stretch_keeps
    _ = W3 m ρ c (Proc.devRef .tc main_v9) := by stretch_keeps
    _ = StableHlo.after hostOps1 (W2 m ρ c) (Proc.devRef .tc main_v9) := rfl

/-- The second and third stretches before the second launch leave %v11. -/
theorem W5_v11_eq (c : Dev nD) :
    W5 m ρ c (Proc.devRef .tc main_v11) = StableHlo.after hostOps1 (W2 m ρ c) (Proc.devRef .tc main_v11) :=
  calc W5 m ρ c (Proc.devRef .tc main_v11)
    _ = W4 m ρ c (Proc.devRef .tc main_v11) := by stretch_keeps
    _ = W3 m ρ c (Proc.devRef .tc main_v11) := by stretch_keeps
    _ = StableHlo.after hostOps1 (W2 m ρ c) (Proc.devRef .tc main_v11) := rfl

/-- The second and third stretches before the second launch leave %v12. -/
theorem W5_v12_eq (c : Dev nD) :
    W5 m ρ c (Proc.devRef .tc main_v12) = StableHlo.after hostOps1 (W2 m ρ c) (Proc.devRef .tc main_v12) :=
  calc W5 m ρ c (Proc.devRef .tc main_v12)
    _ = W4 m ρ c (Proc.devRef .tc main_v12) := by stretch_keeps
    _ = W3 m ρ c (Proc.devRef .tc main_v12) := by stretch_keeps
    _ = StableHlo.after hostOps1 (W2 m ρ c) (Proc.devRef .tc main_v12) := rfl

/-! ## Each array the second and third launches read, as the host operations build it -/

theorem W5_v4 (c : Dev nD) :
    (W5 m ρ c (Proc.devRef .tc main_v4) : FVec Ideal S8192x2048 .bf16)
      = shapeCast S8192x2048 (extractStridedSlice S8192x2048x1 ![0, 0, 0]
          (shapeCast S8192x2048x2 (aT (V2 m ρ) c) shapeCasts_S8192x4096_S8192x2048x2)
          slices_S8192x2048x2_S8192x2048x1_0_0_0) shapeCasts_S8192x2048x1_S8192x2048 := by
  rw [W5_v4_eq]
  after_results
  rfl

theorem W5_v6 (c : Dev nD) :
    (W5 m ρ c (Proc.devRef .tc main_v6) : FVec Ideal S8192x2048 .bf16)
      = shapeCast S8192x2048 (extractStridedSlice S8192x2048x1 ![0, 0, 1]
          (shapeCast S8192x2048x2 (aT (V2 m ρ) c) shapeCasts_S8192x4096_S8192x2048x2)
          slices_S8192x2048x2_S8192x2048x1_0_0_1) shapeCasts_S8192x2048x1_S8192x2048 := by
  rw [W5_v6_eq]
  after_results
  rfl

theorem W5_v7 (c : Dev nD) :
    (W5 m ρ c (Proc.devRef .tc main_v7) : IVec S11008x2048 32)
      = shapeCast S11008x2048 (mQ m c) shapeCasts_S22544384_S11008x2048 := by
  rw [W5_v7_eq]
  after_results
  rw [W2_arg1]
  rfl

theorem W5_v9 (c : Dev nD) :
    (W5 m ρ c (Proc.devRef .tc main_v9) : FVec Ideal S11008x32 .f32)
      = shapeCast S11008x32 (shapeCast S352256 (mS m c) shapeCasts_S352256x1_S352256) shapeCasts_S352256_S11008x32 := by
  rw [W5_v9_eq]
  after_results
  rw [W2_arg2]
  rfl

theorem W5_v11 (c : Dev nD) :
    (W5 m ρ c (Proc.devRef .tc main_v11) : IVec S11008x32 32)
      = shapeCast S11008x32 (shapeCast S352256 (mZ m c) shapeCasts_S352256x1_S352256) shapeCasts_S352256_S11008x32 := by
  rw [W5_v11_eq]
  after_results
  rw [W2_arg3]
  rfl

theorem W5_v12 (c : Dev nD) :
    (W5 m ρ c (Proc.devRef .tc main_v12) : FVec Ideal S1x11008 .f32)
      = shapeCast S1x11008 (mB m c) shapeCasts_S11008_S1x11008 := by
  rw [W5_v12_eq]
  after_results
  rw [W2_arg4]
  rfl

/-! ## The statements -/

/-- The first launch reads the activations as 8192 rows of 4096. -/
theorem V1_v0 (c : Dev nD) :
    aX (V1 m ρ) c = shapeCast S8192x4096 (mX m c) shapeCasts_S4x2048x4096_S8192x4096 := by
  show StableHlo.after hostOps0 (W0 m ρ c) (Proc.devRef .tc main_v0) = _
  after_results
  rfl

/-- The even columns of the first launch's output. -/
theorem V5_v4 (c : Dev nD) (r : Fin 8192) (j : Fin 2048) :
    aXe (V5 m ρ) c (ix2 r j) = aT (V2 m ρ) c (ix2 r (Cert.Spec.ev j)) :=
  (congrFun (W5_v4 m ρ c) (ix2 r j)).trans
    (pairs_apply 0 (by decide) _ _ _ _ r j (Cert.Spec.ev j) rfl)

/-- The odd columns of the first launch's output. -/
theorem V5_v6 (c : Dev nD) (r : Fin 8192) (j : Fin 2048) :
    aXo (V5 m ρ) c (ix2 r j) = aT (V2 m ρ) c (ix2 r (Cert.Spec.od j)) :=
  (congrFun (W5_v6 m ρ c) (ix2 r j)).trans
    (pairs_apply 1 (by decide) _ _ _ _ r j (Cert.Spec.od j) rfl)

/-- The packed words as 11008 rows of 2048. -/
theorem V5_v7 (c : Dev nD) (n : Fin 11008) (j : Fin 2048) :
    aQ (V5 m ρ) c (ix2 n j) = mQ m c (ix1 (Cert.Spec.qix n j)) :=
  (congrFun (W5_v7 m ρ c) (ix2 n j)).trans (words_apply _ _ n j)

/-- The scales as 11008 rows of 32 groups. -/
theorem V5_v9 (c : Dev nD) (n : Fin 11008) (g : Fin 32) :
    aS (V5 m ρ) c (ix2 n g) = mS m c (ix2 (Cert.Spec.gix n g) (0 : Fin 1)) :=
  (congrFun (W5_v9 m ρ c) (ix2 n g)).trans (groups_apply _ _ _ n g)

/-- The zero points as 11008 rows of 32 groups. -/
theorem V5_v11 (c : Dev nD) (n : Fin 11008) (g : Fin 32) :
    aZ (V5 m ρ) c (ix2 n g) = mZ m c (ix2 (Cert.Spec.gix n g) (0 : Fin 1)) :=
  (congrFun (W5_v11 m ρ c) (ix2 n g)).trans (groups_apply _ _ _ n g)

/-- The bias as one row. -/
theorem V5_v12 (c : Dev nD) (n : Fin 11008) :
    aB (V5 m ρ) c (ix2 (0 : Fin 1) n) = mB m c (ix1 n) :=
  (congrFun (W5_v12 m ρ c) (ix2 (0 : Fin 1) n)).trans (bias_apply _ _ n)

/-- The result is the third launch's output, reshaped. -/
theorem W8_v24 (c : Dev nD) :
    W8 m ρ c (Proc.devRef .tc main_v24)
      = shapeCast S4x2048x11008 (aOut (V7 m ρ) c) shapeCasts_S8192x11008_S4x2048x11008 := by
  show StableHlo.after hostOps3 (W7 m ρ c) (Proc.devRef .tc main_v24) = _
  after_results
  rfl

end Cert.KernelIdeal.Val

end
-- ==== Proof.OneHot.lean ====
/-
  The table the host builds before the second launch, from two iotas, a floor division by 64 and a comparison: 1 where
  word j lies in group g, else 0.
-/
import proofs.«417241_j81913616270135_3_alg».proof.Proof.Gen.KernelIdeal.Frame
import proofs.«417241_j81913616270135_3_alg».proof.Proof.Spec
import proofs.«417241_j81913616270135_3_alg».proof.Proof.Arrays
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.StableHlo.Predicate
set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! ## Words: the floor division of a small non-negative word by 64 -/

/-- The sign of a word: 0, or -1 under the sign bit, or 1. -/
def sgnW (a : BitVec 32) : BitVec 32 := if a = 0 then 0 else if a.msb then -1 else 1

/-- Floor division of words as printed: the quotient toward zero, less one where the signs differ and the remainder is
    not zero. -/
def floorDivW (a b : BitVec 32) : BitVec 32 :=
  Scalar.select (IntOp.andi (IntOp.cmpi .ne (sgnW a) (sgnW b)) (IntOp.cmpi .ne (IntOp.remsi .host a b) 0#32))
    (IntOp.subi (IntOp.divsi .host a b) 1#32) (IntOp.divsi .host a b)

/-- Below 2048 the quotient toward zero by 64 is the quotient of the naturals. -/
theorem divsi_64 (n : ℕ) (hn : n < 2048) : IntOp.divsi .host (BitVec.ofNat 32 n) 64#32 = BitVec.ofNat 32 (n / 64) := by
  have hcorner : ¬ IntOp.SDivCorner (BitVec.ofNat 32 n) 64#32 := by
    intro hc; rcases hc with hc | ⟨_, hc⟩ <;> exact absurd hc (by decide)
  have ht : (BitVec.ofNat 32 n).toNat = n := by rw [BitVec.toNat_ofNat]; omega
  have hm : (BitVec.ofNat 32 n).msb = false := BitVec.msb_eq_false_iff_two_mul_lt.mpr (by rw [ht]; omega)
  apply BitVec.eq_of_toNat_eq
  simp only [IntOp.divsi, if_neg hcorner, BitVec.sdiv_eq, hm, show (64#32 : BitVec 32).msb = false from by decide, BitVec.udiv_eq,
    BitVec.toNat_udiv, BitVec.toNat_ofNat]
  rw [Nat.mod_eq_of_lt (show n < 2 ^ 32 by omega), Nat.mod_eq_of_lt (show n / 64 < 2 ^ 32 by omega)]

/-- The correction never fires below 2048: a positive word has the sign of 64, and 0 leaves no remainder. -/
theorem floorDivW_64 (n : ℕ) (hn : n < 2048) : floorDivW (BitVec.ofNat 32 n) 64#32 = BitVec.ofNat 32 (n / 64) := by
  have ht : (BitVec.ofNat 32 n).toNat = n := by rw [BitVec.toNat_ofNat]; omega
  have hm : (BitVec.ofNat 32 n).msb = false := BitVec.msb_eq_false_iff_two_mul_lt.mpr (by rw [ht]; omega)
  have hbit : IntOp.andi (IntOp.cmpi .ne (sgnW (BitVec.ofNat 32 n)) (sgnW 64#32))
      (IntOp.cmpi .ne (IntOp.remsi .host (BitVec.ofNat 32 n) 64#32) 0#32) = 0#1 := by
    rcases Nat.eq_zero_or_pos n with h0 | hpos
    · subst h0; decide
    · have hne : ¬ BitVec.ofNat 32 n = 0 := fun h => by
        have := congrArg BitVec.toNat h; rw [ht] at this; simp at this; omega
      have hs : sgnW (BitVec.ofNat 32 n) = 1 := by unfold sgnW; rw [if_neg hne, hm]; rfl
      have hs64 : sgnW 64#32 = 1 := by decide
      rw [hs, hs64]
      have : IntOp.cmpi .ne (1 : BitVec 32) 1 = 0#1 := by decide
      rw [this]; unfold IntOp.andi; exact BitVec.zero_and
  unfold floorDivW
  rw [hbit, select_zero, divsi_64 n hn]

/-- Two small words are equal exactly when their values are. -/
theorem cmpi_eq_ofNat (a b : ℕ) (ha : a < 2 ^ 32) (hb : b < 2 ^ 32) :
    IntOp.cmpi .eq (BitVec.ofNat 32 a) (BitVec.ofNat 32 b) = if a = b then 1#1 else 0#1 := by
  by_cases h : a = b
  · subst h; rw [if_pos rfl]; exact StableHlo.Predicate.cmpi_eq_iff.mpr rfl
  · rw [if_neg h]
    apply eq_zero_of_ne_one
    intro h1
    have := congrArg BitVec.toNat (StableHlo.Predicate.cmpi_eq_iff.mp h1)
    rw [BitVec.toNat_ofNat, BitVec.toNat_ofNat, Nat.mod_eq_of_lt ha, Nat.mod_eq_of_lt hb] at this
    exact h this

/-! ## The table as a term of the host's operations -/

/-- Floor division of a [1, 2048] row of words by a scalar word, as the host's operations spell it. -/
def floorDiv (x : IVec S1x2048 32) (d : IVec S_ 32) : IVec S1x2048 32 :=
  select
    (andi (cmpi .ne (signi x) (broadcastInDim S1x2048 ![] bcast_S_S1x2048 (signi d)))
      (cmpi .ne (Host.remsi x (broadcastInDim S1x2048 ![] bcast_S_S1x2048 d))
        (broadcastInDim S1x2048 ![] bcast_S_S1x2048 (constantI S_ 32 0#32))))
    (subi (Host.divsi x (broadcastInDim S1x2048 ![] bcast_S_S1x2048 d))
      (broadcastInDim S1x2048 ![] bcast_S_S1x2048 (constantI S_ 32 1#32)))
    (Host.divsi x (broadcastInDim S1x2048 ![] bcast_S_S1x2048 d))

/-- The last stretch: the table is the comparison of the two broadcasts, as a number. -/
theorem stretch2 (W : Valuation τ sig (Elt Ideal)) :
    StableHlo.after (hostOps1_2 (F := Ideal)) W (Proc.devRef .tc main_v21)
      = (uitofp .f32 (cmpi .eq (broadcastInDim S32x2048 ![0, 1] bcast_S1x2048_S32x2048_0_1 (W (Proc.devRef .tc main_v17) : IVec S1x2048 32))
           (broadcastInDim S32x2048 ![0, 1] bcast_S32x1_S32x2048_0_1 (W (Proc.devRef .tc main_v16) : IVec S32x1 32))) : FVec Ideal S32x2048 .f32) := by
  after_results

set_option maxHeartbeats 1000000 in
/-- The middle stretch: the quotient row is the floor division of the word row by the scalar. -/
theorem stretch1_v17 (W : Valuation τ sig (Elt Ideal)) :
    StableHlo.after (hostOps1_1 (F := Ideal)) W (Proc.devRef .tc main_v17)
      = floorDiv (W (Proc.devRef .tc main_v14) : IVec S1x2048 32) (W (Proc.devRef .tc main_c) : IVec S_ 32) := by
  after_results
  rfl

set_option maxHeartbeats 1000000 in
/-- The middle stretch leaves the group column. -/
theorem stretch1_v16 (W : Valuation τ sig (Elt Ideal)) :
    StableHlo.after (hostOps1_1 (F := Ideal)) W (Proc.devRef .tc main_v16) = W (Proc.devRef .tc main_v16) := by
  after_results

set_option maxHeartbeats 1000000 in
/-- The first stretch: the word row is the positions 0 … 2047. -/
theorem stretch0_v14 (W : Valuation τ sig (Elt Ideal)) :
    StableHlo.after (hostOps1 (F := Ideal)) W (Proc.devRef .tc main_v14)
      = (broadcastInDim S1x2048 ![1] bcast_S2048_S1x2048_1 (iotaInDim S2048 32 0) : IVec S1x2048 32) := by
  after_results

set_option maxHeartbeats 1000000 in
/-- The first stretch: the group column is the positions 0 … 31. -/
theorem stretch0_v16 (W : Valuation τ sig (Elt Ideal)) :
    StableHlo.after (hostOps1 (F := Ideal)) W (Proc.devRef .tc main_v16)
      = (broadcastInDim S32x1 ![0] bcast_S32_S32x1_0 (iotaInDim S32 32 0) : IVec S32x1 32) := by
  after_results

set_option maxHeartbeats 1000000 in
/-- The first stretch: the divisor is 64. -/
theorem stretch0_c (W : Valuation τ sig (Elt Ideal)) :
    StableHlo.after (hostOps1 (F := Ideal)) W (Proc.devRef .tc main_c) = (constantI S_ 32 64#32 : IVec S_ 32) := by
  after_results

/-- The table's term: the comparison of the quotient row, broadcast down the rows, with the group column, broadcast along
    the columns, as a number. -/
def tableTerm : FVec Ideal S32x2048 .f32 :=
  uitofp .f32 (cmpi .eq
    (broadcastInDim S32x2048 ![0, 1] bcast_S1x2048_S32x2048_0_1
      (floorDiv (broadcastInDim S1x2048 ![1] bcast_S2048_S1x2048_1 (iotaInDim S2048 32 0)) (constantI S_ 32 64#32)))
    (broadcastInDim S32x2048 ![0, 1] bcast_S32x1_S32x2048_0_1
      (broadcastInDim S32x1 ![0] bcast_S32_S32x1_0 (iotaInDim S32 32 0))))

/-- At (g, j) the term compares the floor quotient of the word j by 64 with the word g. -/
theorem tableTerm_apply (g : Fin 32) (j : Fin 2048) :
    tableTerm (ix2 g j)
      = (((IntOp.cmpi .eq (floorDivW (BitVec.ofNat 32 j.val) 64#32) (BitVec.ofNat 32 g.val)).toNat : ℝ) : EReal) := rfl

variable (m : (ℓ : Loc nD τ sig) → Buf (Elt Ideal) ℓ) (ρ : Dev nD → PrngReg)

/-- The table the second launch enters with is the term: each stretch read at the buffers the next one uses. -/
theorem V5_v21_term (c : Dev nD) : aE (V5 m ρ) c = tableTerm := by
  have e21 := stretch2 (W4 m ρ c)
  have e17 : (W4 m ρ c (Proc.devRef .tc main_v17) : IVec S1x2048 32)
      = floorDiv (W3 m ρ c (Proc.devRef .tc main_v14) : IVec S1x2048 32) (W3 m ρ c (Proc.devRef .tc main_c) : IVec S_ 32) :=
    stretch1_v17 (W3 m ρ c)
  have e16 : (W4 m ρ c (Proc.devRef .tc main_v16) : IVec S32x1 32) = W3 m ρ c (Proc.devRef .tc main_v16) :=
    stretch1_v16 (W3 m ρ c)
  have e14 : (W3 m ρ c (Proc.devRef .tc main_v14) : IVec S1x2048 32) = _ := stretch0_v14 (W2 m ρ c)
  have e16' : (W3 m ρ c (Proc.devRef .tc main_v16) : IVec S32x1 32) = _ := stretch0_v16 (W2 m ρ c)
  have ec : (W3 m ρ c (Proc.devRef .tc main_c) : IVec S_ 32) = _ := stretch0_c (W2 m ρ c)
  rw [e17, e16, e14, e16', ec] at e21
  exact e21

/-- The table at group g, word j. -/
theorem V5_v21 (c : Dev nD) (g : Fin 32) (j : Fin 2048) :
    aE (V5 m ρ) c (ix2 g j) = Cert.Spec.onehot g j := by
  rw [V5_v21_term m ρ c, tableTerm_apply, floorDivW_64 j.val j.isLt,
    cmpi_eq_ofNat (j.val / 64) g.val (by have := j.isLt; omega) (by have := g.isLt; omega)]
  unfold Cert.Spec.onehot
  split <;> simp

end Cert.KernelIdeal.Val

end
-- ==== Proof.RefValue.lean ====
/-
  The reference program's result before its last reshape, read at token row r and feature n: the contraction of the
  fake-quantised row against the dequantised weight row, plus the bias.
-/
import proofs.«417241_j81913616270135_3_alg».proof.Proof.Gen.ReferenceIdeal.Read
import proofs.«417241_j81913616270135_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-! ## Indices of the contraction -/

theorem lidx_at (r : Fin 8192) (n : Fin 11008) (k : Fin 4096) : lidx_main_v32 (ix2 r n) k = ix2 r k := by
  funext a; match a with | ⟨0, _⟩ => rfl | ⟨1, _⟩ => rfl

theorem ridx_at (r : Fin 8192) (n : Fin 11008) (k : Fin 4096) : ridx_main_v32 (ix2 r n) k = ix2 k n := by
  funext a; match a with | ⟨0, _⟩ => rfl | ⟨1, _⟩ => rfl

/-! ## The bias -/

theorem bias_at (x4 : (⟨S11008, .f32⟩ : BufTy).Contents (Elt Ideal)) (r : Fin 8192) (n : Fin 11008) :
    val_main_v34 (F := Ideal) x4 (ix2 r n) = x4 (ix1 n) := by
  rw [val_main_v34_apply, val_main_v33_apply]
  congr 1
  funext a; match a with | ⟨0, _⟩ => rfl

/-! ## The left factor: the fake-quantised row -/

/-- The reduced index r with column k put back is (r, k). -/
theorem lift_row (h : S8192x4096.Reduces [1] S8192) (r : Fin 8192) (k : Fin 4096) : h.lift (ix1 r) k = ix2 r k := by
  funext c; apply Fin.ext
  match c with | ⟨0, _⟩ => rfl | ⟨1, _⟩ => rfl

/-- The row maximum of |x|: the fold of max from minus infinity over the row's 4096 magnitudes. -/
theorem v2_at (x0 : (⟨S4x2048x4096, .f32⟩ : BufTy).Contents (Elt Ideal)) (r : Fin 8192) :
    val_main_v2 (F := Ideal) x0 (ix1 r) = Cert.Spec.rowAmax (fun k' => val_main_v0 (F := Ideal) x0 (ix2 r k')) := by
  unfold val_main_v2
  have h : S8192x4096.Reduces [1] S8192 := by decide
  rw [Host.reduce_eq_fold_single FloatOps.maximumf _ _ _ h h_S_]
  unfold Cert.Spec.rowAmax
  have hf : (val_main_v1 (F := Ideal) x0 ∘ h.lift (ix1 r))
      = fun k : Fin 4096 => max (val_main_v0 (F := Ideal) x0 (ix2 r k)) (-(val_main_v0 (F := Ideal) x0 (ix2 r k))) :=
    funext fun k : Fin 4096 => (congrArg (val_main_v1 (F := Ideal) x0) (lift_row h r k)).trans rfl
  exact congrArg (fun f => Finset.fold max (Ideal.ofBits .f32 0xFF800000#32) f (Finset.univ : Finset (Fin 4096))) hf

/-- The quantisation step of row r. -/
theorem v7_at (x0 : (⟨S4x2048x4096, .f32⟩ : BufTy).Contents (Elt Ideal)) (r : Fin 8192) :
    val_main_v7 (F := Ideal) x0 (ix2 r (0 : Fin 1)) = Cert.Spec.qstep (fun k' => val_main_v0 (F := Ideal) x0 (ix2 r k')) := by
  have e : idx_main_v3 (ix2 r (0 : Fin 1)) = ix1 r := by funext a; match a with | ⟨0, _⟩ => rfl
  rw [val_main_v7_apply, val_main_v5_apply, val_main_v3_apply, val_main_v4_apply, val_main_v6_apply, val_main_cst_0_apply,
    val_main_cst_1_apply, e, v2_at]
  unfold Cert.Spec.qstep
  exact Cert.Spec.div_127 _

/-- The integer 127 converts to the number the pattern of 127.0 denotes. -/
theorem sitofp_127 : FloatOps.sitofp (F := Ideal) .f32 (127#32 : BitVec 32) = Ideal.ofBits .f32 0x42FE0000#32 := by
  rw [Cert.Spec.ofBits_127]
  show (((127#32 : BitVec 32).toInt : ℝ) : EReal) = _
  have h : (127#32 : BitVec 32).toInt = 127 := by decide
  rw [h]; norm_num

/-- The integer -128 converts to the number the pattern of -128.0 denotes. -/
theorem sitofp_neg128 : FloatOps.sitofp (F := Ideal) .f32 (4294967168#32 : BitVec 32) = Ideal.ofBits .f32 0xC3000000#32 := by
  rw [Cert.Spec.ofBits_neg128]
  show (((4294967168#32 : BitVec 32).toInt : ℝ) : EReal) = _
  have h : (4294967168#32 : BitVec 32).toInt = -128 := by decide
  rw [h]; norm_num

/-- Entry (r, k) of the left operand is entry k of the fake-quantised row r. -/
theorem lhs_at (x0 : (⟨S4x2048x4096, .f32⟩ : BufTy).Contents (Elt Ideal)) (r : Fin 8192) (k : Fin 4096) :
    val_main_v13 (F := Ideal) x0 (ix2 r k) = Cert.Spec.fakeq (fun k' => val_main_v0 (F := Ideal) x0 (ix2 r k')) k := by
  have e12 : idx_main_v12 (ix2 r k) = ix2 r (0 : Fin 1) := by funext a; match a with | ⟨0, _⟩ => rfl | ⟨1, _⟩ => rfl
  have e8 : idx_main_v8 (ix2 r k) = ix2 r (0 : Fin 1) := by funext a; match a with | ⟨0, _⟩ => rfl | ⟨1, _⟩ => rfl
  rw [val_main_v13_apply, val_main_v12_apply, e12, v7_at, val_main_v11_apply, val_main_call1_v4_apply, val_main_call1_v3_apply,
    val_main_c_2_apply, sitofp_127, val_main_call1_v2_apply, val_main_call1_v1_apply, val_main_call1_v0_apply, val_main_c_apply,
    sitofp_neg128, val_main_v10_apply, val_main_v9_apply, val_main_v8_apply, e8, v7_at]
  rfl

/-! ## The right factor: the dequantised weight row -/

/-- At 32 bits an arithmetic right shift by 4 is the same function on the host and on the vector unit. -/
theorem shrsi_host4 (x : BitVec 32) : IntOp.shrsi .host x 4#32 = IntOp.shrsi .vector x 4#32 := by
  simp [IntOp.shrsi]

/-- Field 0 of word w is the word's high 4-bit field. -/
theorem v22_hi (x1 : (⟨S22544384, .i32⟩ : BufTy).Contents (Elt Ideal)) (w : Fin 22544384) :
    val_main_v22 (F := Ideal) x1 (ix2 w (0 : Fin 2)) = IntOp.andi (IntOp.shrsi .vector (x1 (ix1 w)) 4#32) 15#32 := by
  have e : idx_main_v20 (ix2 w (0 : Fin 1)) = ix1 w := by funext a; match a with | ⟨0, _⟩ => rfl
  unfold val_main_v22
  rw [concatenate_pair_apply_left (t := S22544384x2) (s₁ := S22544384x1) (s₂ := S22544384x1) (1 : Fin S22544384x2.rank)
    (val_main_v20 (F := Ideal) x1) (val_main_v21 (F := Ideal) x1) concatenates_S22544384x1_S22544384x1_S22544384x2_d1
    (ix2 w (0 : Fin 2)) rfl (ix2 w (0 : Fin 1)) (fun b => match b with | ⟨0, _⟩ => rfl | ⟨1, _⟩ => rfl)]
  rw [val_main_v20_apply, e, val_main_v17_apply, val_main_v15_apply, val_main_v14_apply, val_main_v16_apply, val_main_c_3_apply,
    val_main_c_4_apply, shrsi_host4]

/-- Field 1 of word w is the word's low 4-bit field. -/
theorem v22_lo (x1 : (⟨S22544384, .i32⟩ : BufTy).Contents (Elt Ideal)) (w : Fin 22544384) :
    val_main_v22 (F := Ideal) x1 (ix2 w (1 : Fin 2)) = IntOp.andi (x1 (ix1 w)) 15#32 := by
  have e : idx_main_v21 (ix2 w (0 : Fin 1)) = ix1 w := by funext a; match a with | ⟨0, _⟩ => rfl
  unfold val_main_v22
  rw [concatenate_pair_apply_right (t := S22544384x2) (s₁ := S22544384x1) (s₂ := S22544384x1) (1 : Fin S22544384x2.rank)
    (val_main_v20 (F := Ideal) x1) (val_main_v21 (F := Ideal) x1) concatenates_S22544384x1_S22544384x1_S22544384x2_d1
    (ix2 w (1 : Fin 2)) rfl rfl (ix2 w (0 : Fin 1))
    (fun b => match b with | ⟨0, _⟩ => fun _ => rfl | ⟨1, _⟩ => fun hb => absurd rfl hb) rfl]
  rw [val_main_v21_apply, e, val_main_v19_apply, val_main_v18_apply, val_main_c_5_apply]

/-- Column k of weight row n as a number: the high field of word k / 2 for even k, the low field for odd k. -/
theorem v23_at (x1 : (⟨S22544384, .i32⟩ : BufTy).Contents (Elt Ideal)) (n : Fin 11008) (k : Fin 4096) :
    FloatOps.sitofp (F := Ideal) .f32 (val_main_v23 (F := Ideal) x1 (ix2 (Cert.Spec.gix n (Cert.Spec.grpK k)) (⟨k.val % 128, Nat.mod_lt _ (by decide)⟩ : Fin 128)))
      = if k.val % 2 = 0 then Cert.Spec.hiNib (x1 (ix1 (Cert.Spec.qix n (Cert.Spec.half k))))
        else Cert.Spec.loNib (x1 (ix1 (Cert.Spec.qix n (Cert.Spec.half k)))) := by
  rw [val_main_v23_apply]
  have hn := n.isLt
  have hk := k.isLt
  by_cases hp : k.val % 2 = 0
  · have e : idx_main_v23 (ix2 (Cert.Spec.gix n (Cert.Spec.grpK k)) (⟨k.val % 128, Nat.mod_lt _ (by decide)⟩ : Fin 128))
        = ix2 (Cert.Spec.qix n (Cert.Spec.half k)) (0 : Fin 2) := by
      funext a
      match a with
      | ⟨0, _⟩ => exact Fin.ext (by show ((n.val * 32 + k.val / 128) * 128 + k.val % 128) / 2 = n.val * 2048 + k.val / 2; omega)
      | ⟨1, _⟩ => exact Fin.ext (by show ((n.val * 32 + k.val / 128) * 128 + k.val % 128) % 2 = 0; omega)
    rw [e, v22_hi, if_pos hp]; rfl
  · have e : idx_main_v23 (ix2 (Cert.Spec.gix n (Cert.Spec.grpK k)) (⟨k.val % 128, Nat.mod_lt _ (by decide)⟩ : Fin 128))
        = ix2 (Cert.Spec.qix n (Cert.Spec.half k)) (1 : Fin 2) := by
      funext a
      match a with
      | ⟨0, _⟩ => exact Fin.ext (by show ((n.val * 32 + k.val / 128) * 128 + k.val % 128) / 2 = n.val * 2048 + k.val / 2; omega)
      | ⟨1, _⟩ => exact Fin.ext (by show ((n.val * 32 + k.val / 128) * 128 + k.val % 128) % 2 = 1; omega)
    rw [e, v22_lo, if_neg hp]; rfl

/-- Entry (k, n) of the right operand is entry k of the dequantised weight row n. -/
theorem rhs_at (x1 : (⟨S22544384, .i32⟩ : BufTy).Contents (Elt Ideal)) (x2 : (⟨S352256x1, .f32⟩ : BufTy).Contents (Elt Ideal))
    (x3 : (⟨S352256x1, .i32⟩ : BufTy).Contents (Elt Ideal)) (k : Fin 4096) (n : Fin 11008) :
    val_main_v31 (F := Ideal) x1 x2 x3 (ix2 k n)
      = Cert.Spec.wrow (fun j => Cert.Spec.hiNib (x1 (ix1 (Cert.Spec.qix n j))))
          (fun j => Cert.Spec.loNib (x1 (ix1 (Cert.Spec.qix n j))))
          (fun g => FloatOps.sitofp (F := Ideal) .f32 (x3 (ix2 (Cert.Spec.gix n g) (0 : Fin 1))))
          (fun g => x2 (ix2 (Cert.Spec.gix n g) (0 : Fin 1))) k := by
  have hn := n.isLt
  have hk := k.isLt
  have e31 : idx_main_v31 (ix2 k n) = ix2 n k := by funext a; match a with | ⟨0, _⟩ => rfl | ⟨1, _⟩ => rfl
  have e30 : idx_main_v30 (ix2 n k) = ix2 (Cert.Spec.gix n (Cert.Spec.grpK k)) (⟨k.val % 128, Nat.mod_lt _ (by decide)⟩ : Fin 128) := by
    funext a
    match a with
    | ⟨0, _⟩ => exact Fin.ext (by show (n.val * 4096 + k.val) / 128 = n.val * 32 + k.val / 128; omega)
    | ⟨1, _⟩ => exact Fin.ext (by show (n.val * 4096 + k.val) % 128 = k.val % 128; omega)
  have e28 : idx_main_v28 (ix2 (Cert.Spec.gix n (Cert.Spec.grpK k)) (⟨k.val % 128, Nat.mod_lt _ (by decide)⟩ : Fin 128))
      = ix2 (Cert.Spec.gix n (Cert.Spec.grpK k)) (0 : Fin 1) := by
    funext a; match a with | ⟨0, _⟩ => rfl | ⟨1, _⟩ => rfl
  have e26 : idx_main_v26 (ix2 (Cert.Spec.gix n (Cert.Spec.grpK k)) (⟨k.val % 128, Nat.mod_lt _ (by decide)⟩ : Fin 128))
      = ix2 (Cert.Spec.gix n (Cert.Spec.grpK k)) (0 : Fin 1) := by
    funext a; match a with | ⟨0, _⟩ => rfl | ⟨1, _⟩ => rfl
  rw [val_main_v31_apply, e31, val_main_v30_apply, e30, val_main_v29_apply, val_main_v28_apply, e28, val_main_v27_apply,
    val_main_v26_apply, e26, val_main_v25_apply, val_main_v24_apply, v23_at]
  rfl

/-! ## The product -/

/-- Row r of the reference's product, at feature n. The activations enter through their reshape to 8192 rows
    (`val_main_v0 x0`), which is left unopened. -/
theorem ref_2d (x0 : (⟨S4x2048x4096, .f32⟩ : BufTy).Contents (Elt Ideal)) (x1 : (⟨S22544384, .i32⟩ : BufTy).Contents (Elt Ideal))
    (x2 : (⟨S352256x1, .f32⟩ : BufTy).Contents (Elt Ideal)) (x3 : (⟨S352256x1, .i32⟩ : BufTy).Contents (Elt Ideal))
    (x4 : (⟨S11008, .f32⟩ : BufTy).Contents (Elt Ideal)) (r : Fin 8192) (n : Fin 11008) :
    val_main_v35 (F := Ideal) x0 x1 x2 x3 x4 (ix2 r n)
      = ∑ k : Fin 4096, Cert.Spec.fakeq (fun k' => val_main_v0 (F := Ideal) x0 (ix2 r k')) k
            * Cert.Spec.wrow (fun j => Cert.Spec.hiNib (x1 (ix1 (Cert.Spec.qix n j))))
                (fun j => Cert.Spec.loNib (x1 (ix1 (Cert.Spec.qix n j))))
                (fun g => FloatOps.sitofp (F := Ideal) .f32 (x3 (ix2 (Cert.Spec.gix n g) (0 : Fin 1))))
                (fun g => x2 (ix2 (Cert.Spec.gix n g) (0 : Fin 1))) k
          + x4 (ix1 n) := by
  rw [val_main_v35_apply, val_main_v32_apply, bias_at]
  refine congrArg (fun s => s + x4 (ix1 n)) (Finset.sum_congr rfl fun k _ => ?_)
  rw [lidx_at, ridx_at, lhs_at, rhs_at]

end Cert.ReferenceIdeal.RefValue

end
-- ==== Proof.Bridge.lean ====
/-
  The two programs compute one function.

  The kernel's result is the third launch's output reshaped to [4, 2048, 11008]; the reference's result is its product
  reshaped the same way; both reshapes are applied to arrays of shape [8192, 11008], so it is enough that those agree
  entry by entry. At token row r and feature n the kernel's array is

      (sum over words j of T(r, 2j) * whi(n, j)  +  sum over words j of T(r, 2j+1) * wlo(n, j))  +  bias n

  with T the fake-quantised activations (first launch; the even and odd columns are two strided slices of it) and whi, wlo
  the dequantised high and low fields (second launch), whose zero point and scale are sums against the one-hot table. The
  reference's is the contraction of row r of T against the dequantised weight row n over all 4096 columns, plus the bias.
  The law `Cert.Spec.split_contraction` joins the two: a reordering of a finite sum and the one-hot selection; nothing in
  it asks an entry to be finite.
-/
import proofs.«417241_j81913616270135_3_alg».proof.Proof.KRun
import proofs.«417241_j81913616270135_3_alg».proof.Proof.Region0
import proofs.«417241_j81913616270135_3_alg».proof.Proof.Region1
import proofs.«417241_j81913616270135_3_alg».proof.Proof.Region2
import proofs.«417241_j81913616270135_3_alg».proof.Proof.HostGlue
import proofs.«417241_j81913616270135_3_alg».proof.Proof.OneHot
import proofs.«417241_j81913616270135_3_alg».proof.Proof.RefValue

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The activations as the first launch finds them: the argument reshaped to 8192 rows. -/
abbrev rows (c : Dev nD) : FVec Ideal S8192x4096 .f32 :=
  shapeCast S8192x4096 (mX m c) shapeCasts_S4x2048x4096_S8192x4096

/-- The even columns the third launch reads are the fake-quantised row at the even columns. -/
theorem even_cols (c : Dev nD) (r : Fin 8192) (j : Fin 2048) :
    aXe (V6 m ρ) c (ix2 r j) = Cert.Spec.fakeq (fun k' => rows m c (ix2 r k')) (Cert.Spec.ev j) := by
  have e1 : aXe (V6 m ρ) c = aXe (V5 m ρ) c := W6_of_ne m ρ c main_v4 (by decide)
  have e2 : aT (V2 m ρ) c = (dat0 (F := Ideal) (V1 m ρ) c).arrAt 1 cfg0.N := (hF0 m ρ c 1).symm
  rw [e1, V5_v4, e2, act_quant_final, V1_v0]

/-- The odd columns likewise. -/
theorem odd_cols (c : Dev nD) (r : Fin 8192) (j : Fin 2048) :
    aXo (V6 m ρ) c (ix2 r j) = Cert.Spec.fakeq (fun k' => rows m c (ix2 r k')) (Cert.Spec.od j) := by
  have e1 : aXo (V6 m ρ) c = aXo (V5 m ρ) c := W6_of_ne m ρ c main_v6 (by decide)
  have e2 : aT (V2 m ρ) c = (dat0 (F := Ideal) (V1 m ρ) c).arrAt 1 cfg0.N := (hF0 m ρ c 1).symm
  rw [e1, V5_v6, e2, act_quant_final, V1_v0]

/-- The zero point selected by the one-hot table, over the launch memory. -/
theorem zero_sel (c : Dev nD) (n : Fin 11008) (j : Fin 2048) :
    ∑ g : Fin 32, FloatOps.sitofp (F := Ideal) .f32 (aZ (V5 m ρ) c (ix2 n g)) * aE (V5 m ρ) c (ix2 g j)
      = ∑ g : Fin 32, FloatOps.sitofp (F := Ideal) .f32 (mZ m c (ix2 (Cert.Spec.gix n g) (0 : Fin 1))) * Cert.Spec.onehot g j :=
  Finset.sum_congr rfl fun g _ => by rw [V5_v11, V5_v21]

/-- The scale selected by the one-hot table, over the launch memory. -/
theorem scale_sel (c : Dev nD) (n : Fin 11008) (j : Fin 2048) :
    ∑ g : Fin 32, aS (V5 m ρ) c (ix2 n g) * aE (V5 m ρ) c (ix2 g j)
      = ∑ g : Fin 32, mS m c (ix2 (Cert.Spec.gix n g) (0 : Fin 1)) * Cert.Spec.onehot g j :=
  Finset.sum_congr rfl fun g _ => by rw [V5_v9, V5_v21]

/-- The high fields the third launch reads, over the launch memory. -/
theorem hi_fields (c : Dev nD) (n : Fin 11008) (j : Fin 2048) :
    aWhi (V6 m ρ) c (ix2 n j)
      = (Cert.Spec.hiNib (mQ m c (ix1 (Cert.Spec.qix n j)))
          - ∑ g : Fin 32, FloatOps.sitofp (F := Ideal) .f32 (mZ m c (ix2 (Cert.Spec.gix n g) (0 : Fin 1))) * Cert.Spec.onehot g j)
        * ∑ g : Fin 32, mS m c (ix2 (Cert.Spec.gix n g) (0 : Fin 1)) * Cert.Spec.onehot g j := by
  have e : aWhi (V6 m ρ) c = (dat1 (F := Ideal) (V5 m ρ) c).arrAt 4 cfg1.N := (hF1 m ρ c 4).symm
  rw [e, dequant_hi, V5_v7, zero_sel, scale_sel]

/-- The low fields likewise. -/
theorem lo_fields (c : Dev nD) (n : Fin 11008) (j : Fin 2048) :
    aWlo (V6 m ρ) c (ix2 n j)
      = (Cert.Spec.loNib (mQ m c (ix1 (Cert.Spec.qix n j)))
          - ∑ g : Fin 32, FloatOps.sitofp (F := Ideal) .f32 (mZ m c (ix2 (Cert.Spec.gix n g) (0 : Fin 1))) * Cert.Spec.onehot g j)
        * ∑ g : Fin 32, mS m c (ix2 (Cert.Spec.gix n g) (0 : Fin 1)) * Cert.Spec.onehot g j := by
  have e : aWlo (V6 m ρ) c = (dat1 (F := Ideal) (V5 m ρ) c).arrAt 5 cfg1.N := (hF1 m ρ c 5).symm
  rw [e, dequant_lo, V5_v7, zero_sel, scale_sel]

/-- The bias the third launch reads. -/
theorem bias_row (c : Dev nD) (n : Fin 11008) : aB (V6 m ρ) c (ix2 (0 : Fin 1) n) = mB m c (ix1 n) := by
  have e : aB (V6 m ρ) c = aB (V5 m ρ) c := W6_of_ne m ρ c main_v12 (by decide)
  rw [e, V5_v12]

/-- THE KERNEL'S PRODUCT at token row r, feature n, as the contraction of the fake-quantised row against the dequantised
    weight row, plus the bias: the third launch's two contractions joined by `Cert.Spec.split_contraction`. -/
theorem kernel_2d (c : Dev nD) (r : Fin 8192) (n : Fin 11008) :
    aOut (V7 m ρ) c (ix2 r n)
      = ∑ k : Fin 4096, Cert.Spec.fakeq (fun k' => rows m c (ix2 r k')) k
            * Cert.Spec.wrow (fun j => Cert.Spec.hiNib (mQ m c (ix1 (Cert.Spec.qix n j))))
                (fun j => Cert.Spec.loNib (mQ m c (ix1 (Cert.Spec.qix n j))))
                (fun g => FloatOps.sitofp (F := Ideal) .f32 (mZ m c (ix2 (Cert.Spec.gix n g) (0 : Fin 1))))
                (fun g => mS m c (ix2 (Cert.Spec.gix n g) (0 : Fin 1))) k
          + mB m c (ix1 n) := by
  have e : aOut (V7 m ρ) c = (dat2 (F := Ideal) (V6 m ρ) c).arrAt 5 cfg2.N := (hF2 m ρ c 5).symm
  rw [e, matmul_final, bias_row]
  rw [Finset.sum_congr rfl (fun j _ => congrArg₂ (fun a b : EReal => a * b) (even_cols m ρ c r j) (hi_fields m ρ c n j)),
      Finset.sum_congr rfl (fun j _ => congrArg₂ (fun a b : EReal => a * b) (odd_cols m ρ c r j) (lo_fields m ρ c n j))]
  exact Cert.Spec.split_contraction (fun k => Cert.Spec.fakeq (fun k' => rows m c (ix2 r k')) k)
    (fun j => Cert.Spec.hiNib (mQ m c (ix1 (Cert.Spec.qix n j)))) (fun j => Cert.Spec.loNib (mQ m c (ix1 (Cert.Spec.qix n j))))
    (fun g => FloatOps.sitofp (F := Ideal) .f32 (mZ m c (ix2 (Cert.Spec.gix n g) (0 : Fin 1))))
    (fun g => mS m c (ix2 (Cert.Spec.gix n g) (0 : Fin 1))) (mB m c (ix1 n))

end Cert.KernelIdeal.Val

end
-- ==== Proof.lean ====
/-
  An int4-packed quantised linear layer in three launches (fake-quantise the activations; unpack and dequantise the
  weights; contract) against its reference, over the extended reals.

  The three frames: the kernel's two are its launch-by-launch frame; the reference's is its run with the result dropped.
  The idealisation's one rewrite names the literal 0.0078740157… as 1/127, which is what makes the kernel's step
  max(a, eps) * (1/127) the reference's max(a, eps) / 127 on every extended real.
  The equivalence: both results are one reshape of an [8192, 11008] array, and those arrays agree entry by entry
  (`Cert.KernelIdeal.Val.kernel_2d` and `Cert.ReferenceIdeal.RefValue.ref_2d` state the same contraction of the
  fake-quantised row against the dequantised weight row, plus the bias). The precondition is never opened: the law that
  joins the two sides is a reordering of finite sums and a selection by a one-hot table, both valid at infinities.
-/
import proofs.«417241_j81913616270135_3_alg».proof.Defs
import proofs.«417241_j81913616270135_3_alg».proof.Proof.Gen.Kernel
import proofs.«417241_j81913616270135_3_alg».proof.Proof.Gen.Kernel.Skeleton
import proofs.«417241_j81913616270135_3_alg».proof.Proof.Gen.Kernel.Launch
import proofs.«417241_j81913616270135_3_alg».proof.Proof.Gen.Kernel.Points
import proofs.«417241_j81913616270135_3_alg».proof.Proof.Gen.Kernel.Frame
import proofs.«417241_j81913616270135_3_alg».proof.Proof.Gen.KernelIdeal
import proofs.«417241_j81913616270135_3_alg».proof.Proof.Gen.KernelIdeal.Skeleton
import proofs.«417241_j81913616270135_3_alg».proof.Proof.Gen.KernelIdeal.Launch
import proofs.«417241_j81913616270135_3_alg».proof.Proof.Gen.KernelIdeal.Points
import proofs.«417241_j81913616270135_3_alg».proof.Proof.Gen.KernelIdeal.Frame
import proofs.«417241_j81913616270135_3_alg».proof.Proof.Gen.ReferenceIdeal
import proofs.«417241_j81913616270135_3_alg».proof.Proof.Gen.ReferenceIdeal.Run
import proofs.«417241_j81913616270135_3_alg».proof.Proof.Gen.ReferenceIdeal.Read
import proofs.«417241_j81913616270135_3_alg».proof.Proof.Gen.Pre_finite_inputs
import proofs.«417241_j81913616270135_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx
open Cert.KernelIdeal.Val

/-- The two [8192, 11008] arrays are one: entry (r, n) of each is the contraction of the fake-quantised row r against the
    dequantised weight row n, plus bias n; the rows enter both through the same reshape of the activations. -/
theorem product_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    aOut (Cert.KernelIdeal.Gen.V7 m ρ) c
      = Cert.ReferenceIdeal.Read.val_main_v35 (F := Ideal) (mX m c) (mQ m c) (mS m c) (mZ m c) (mB m c) := by
  funext i
  obtain ⟨r, n, rfl⟩ : ∃ (r : Fin 8192) (n : Fin 11008), i = ix2 r n := ⟨i 0, i 1, eq_ix2 i⟩
  rw [kernel_2d, Cert.ReferenceIdeal.RefValue.ref_2d]
  rfl

/-- So the results, the same reshape of each, are one. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v36 (F := Ideal) (mX m c) (mQ m c) (mS m c) (mZ m c) (mB m c)
      = Cert.KernelIdeal.Gen.W8 m ρ c (Proc.devRef .tc Cert.KernelIdeal.main_v24) := by
  rw [W8_v24, product_eq]
  rfl

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives "inv_127" the value 1/127, and the printed constant is that value. -/
theorem preserves : Cert.preserves_Kernel_KernelIdeal :=
  IdealRules.named_const.statement Cert.KernelIdeal.κ "inv_127" .f32 0x3C010204#32 ((1 / 127 : ℝ) : EReal) rfl

theorem algebraic : Cert.algebraic_KernelIdeal_ReferenceIdeal := by
  intro m ρ m' ρ' _ hagree
  refine ⟨fun c => Cert.KernelIdeal.Gen.W8 m ρ c (Proc.devRef .tc Cert.KernelIdeal.main_v24),
    Cert.KernelIdeal.RunV.run_v24 m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v36_eq _ _ _ _ _).trans (result_eq m ρ c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, preserves, algebraic⟩

end Cert.Proof

end
